-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_c_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S8192x128 : Shape := ⟨2, ![8192, 128]⟩
abbrev S8192x1 : Shape := ⟨2, ![8192, 1]⟩
abbrev S1024x128 : Shape := ⟨2, ![1024, 128]⟩
abbrev S1024x1 : Shape := ⟨2, ![1024, 1]⟩
abbrev S1024 : Shape := ⟨1, ![1024]⟩
abbrev S128x1024 : Shape := ⟨2, ![128, 1024]⟩
abbrev S1024x1024 : Shape := ⟨2, ![1024, 1024]⟩
abbrev S8192 : Shape := ⟨1, ![8192]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S16384x128_S8192x128_0_0 : S16384x128.Slices ![0, 0] S8192x128
  slices_S16384x128_S8192x128_8192_0 : S16384x128.Slices ![8192, 0] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  shapeCasts_S1024x1_S1024x1 : S1024x1.ShapeCasts S1024x1
  reduces_S1024x1024_S1024 : S1024x1024.Reduces [1] S1024
  shapeCasts_S8192x1_S8192 : S8192x1.ShapeCasts S8192
  reducesTo_S8192_S_d0 : S8192.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S8192x128 : Shape := ⟨2, ![8192, 128]⟩
abbrev S8192x8192 : Shape := ⟨2, ![8192, 8192]⟩
abbrev S128x8192 : Shape := ⟨2, ![128, 8192]⟩
abbrev S8192 : Shape := ⟨1, ![8192]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x128, .f32⟩
  | .hbm, ⟨10, _⟩ => ⟨S16384x128, .f32⟩
  | .hbm, ⟨11, _⟩ => ⟨S8192x128, .f32⟩
  | .hbm, ⟨12, _⟩ => ⟨S8192x128, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S128x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S128x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x128, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S16384x128_S8192x128_0_0 : S16384x128.Slices ![0, 0] S8192x128
  slices_S16384x128_S8192x128_8192_0 : S16384x128.Slices ![8192, 0] S8192x128
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  reducesTo_S8192x128_S8192_d1 : S8192x128.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Point.lean ====
/-
  One grid point of the kernel. The grid is 8 row blocks by 8 column blocks; the body at point (i, j) normalises its four
  input blocks row by row (x / max(‖x‖, ε)), and
    * at j = 0 zeroes the two running row sums and stores exp(⟨q_real, q_aug⟩) of the normalised query rows;
    * at every j adds to the first running sum the row sums of exp(q_real · k_realᵀ) with the global diagonal masked out,
      and to the second the same for the augmented blocks.
  Here: what one point leaves in the three output blocks, as functions of the four input blocks and of the running sums it
  found, and the two runs of the body (j = 0; j ≠ 0) on any whole staging buffers.
-/
import proofs.«181642_j55198919688654_1_alg».proof.Proof.Gen.Kernel
import proofs.«181642_j55198919688654_1_alg».proof.Proof.Gen.Kernel.Skeleton
import proofs.«181642_j55198919688654_1_alg».proof.Proof.Gen.Kernel.Launch
import proofs.«181642_j55198919688654_1_alg».proof.Proof.Gen.Kernel.Points
import Idealize.ShloMosaic.Lib.Writes
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two coordinates of a grid point as the body reads them. -/
abbrev rowW (i : grid0.Coords) : BitVec 32 := BitVec.ofNat 32 (i 0).val
abbrev colW (i : grid0.Coords) : BitVec 32 := BitVec.ofNat 32 (i 1).val

/-- The first running sum after a point that found it at `a`: `a` plus the masked row sums of exp(q · kᵀ) of the normalised real blocks. -/
def addReal (i : grid0.Coords) (xq xk : Vec F S1024x128 .f32) (a : Vec F S1024x1 .f32) : Vec F S1024x1 .f32 :=
  k0_pay10 (rowW i) (colW i) (k0_pay1 xq) (k0_pay6 xk) a

/-- The second running sum likewise, of the augmented blocks. -/
def addAug (i : grid0.Coords) (yq yk : Vec F S1024x128 .f32) (a : Vec F S1024x1 .f32) : Vec F S1024x1 .f32 :=
  k0_pay11 (rowW i) (colW i) (k0_pay2 yq) (k0_pay7 yk) (k0_pay8 yk) (Scalar.ofBits .f32 0x2B8CBCCC#32) a

/-- exp of the row-wise inner product of the normalised real and augmented query blocks. -/
def posBlock (xq yq : Vec F S1024x128 .f32) : Vec F S1024x1 .f32 := k0_pay5 xq yq

/-- The zero block the running sums restart from at j = 0. -/
def zeroCol : Vec F S1024x1 .f32 := k0_pay3 (F := F)
def zeroCol' : Vec F S1024x1 .f32 := k0_pay4 (F := F)

/-- "j = 0", as the body computes it. -/
abbrev IsHead (i : grid0.Coords) : Prop := k0_cond1 i = 1#1

/-- The zero offsets every access of the body goes through. -/
private theorem hz : (![0, 0] : Fin 2 → Nat) = fun _ => 0 := funext fun a => by fin_cases a <;> rfl

/-- A buffer whose last store went through its whole block reads back that store's value. -/
private theorem read_last {S : Shape} {e : EltTy} {sp : Space} (v : View sig .tc sp S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

section Runs

variable (c : Dev nD) (i : grid0.Coords)
  (M0 : Memref sig .tc .vmem S1024x128 .f32) (h0 : M0.IsWhole) (M1 : Memref sig .tc .vmem S1024x128 .f32) (h1 : M1.IsWhole)
  (M2 : Memref sig .tc .vmem S1024x128 .f32) (h2 : M2.IsWhole) (M3 : Memref sig .tc .vmem S1024x128 .f32) (h3 : M3.IsWhole)
  (M4 : Memref sig .tc .vmem S1024x1 .f32) (h4 : M4.IsWhole) (M5 : Memref sig .tc .vmem S1024x1 .f32) (h5 : M5.IsWhole)
  (M6 : Memref sig .tc .vmem S1024x1 .f32) (h6 : M6.IsWhole)
  (x0 x1 x2 x3 : Vec F S1024x128 .f32) (a4 a5 : Vec F S1024x1 .f32)

local notation "BODY" => cc0_ntxent_kernel (F := F) i M0 h0 M1 h1 M2 h2 M3 h3 M4 h4 M5 h5 M6 h6

/-- A point with j = 0: whatever the three output buffers held, they end at the restarted sums and the positive block. -/
theorem run_head (hc : IsHead i) (Q : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ (∃ d, owns (c : Thread nD τ) M4 fullShare d) ∗ (∃ d, owns (c : Thread nD τ) M5 fullShare d) ∗ (∃ d, owns (c : Thread nD τ) M6 fullShare d)
        ∗ (iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare (addReal i x0 x1 zeroCol)
            ∗ owns (c : Thread nD τ) M5 fullShare (addAug i x2 x3 zeroCol')
            ∗ owns (c : Thread nD τ) M6 fullShare (posBlock x0 x2)) -∗ Q ⟨⟩))
      ⊢ wp frame (wpE (defs₀ (F := F)) Variants.none c none) Set.univ BODY Q := by
  simp only [cc0_ntxent_kernel_eq_skeleton]; unfold cc0_ntxent_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, Hk⟩
  subst hf0 hf1 hf2 hf3
  sl_exec (disch := first | exact hc)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    sl_unfold_words
    refine (read_last (S := S1024x1) M4.view f4 hz _ _ _).trans ?_
    dsimp only
    rw [View.readCov_unit_zero (S := S1024x1) _ hz]
    simp only [View.readAt_eq_ld, View.ld_unit_zero (S := S1024x128) hz]
    rfl
  isplitl [H5]
  · iexists _; isplitr; swap; (· iexact H5); ipureintro
    sl_unfold_words
    refine (read_last (S := S1024x1) M5.view f5 hz _ _ _).trans ?_
    dsimp only
    rw [View.readCov_unit_zero (S := S1024x1) _ hz]
    simp only [View.readAt_eq_ld, View.ld_unit_zero (S := S1024x128) hz]
    rfl
  iexists _; isplitr; swap; (· iexact H6); ipureintro
  refine (read_last (S := S1024x1) M6.view f6 hz _ _ _).trans ?_
  simp only [View.readAt_eq_ld, View.ld_unit_zero (S := S1024x128) hz]
  rfl

/-- A point with j ≠ 0: the running sums at `a4`, `a5` are added to; the third output's buffer, whatever holds it, is untouched. -/
theorem run_tail (hc : ¬ IsHead i) (O : sProp 𝕄) (Q : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare a4 ∗ owns (c : Thread nD τ) M5 fullShare a5 ∗ O
        ∗ (iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare (addReal i x0 x1 a4)
            ∗ owns (c : Thread nD τ) M5 fullShare (addAug i x2 x3 a5) ∗ O) -∗ Q ⟨⟩))
      ⊢ wp frame (wpE (defs₀ (F := F)) Variants.none c none) Set.univ BODY Q := by
  simp only [cc0_ntxent_kernel_eq_skeleton]; unfold cc0_ntxent_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HO, Hk⟩
  subst hf0 hf1 hf2 hf3 hf4 hf5
  sl_exec (disch := first | exact hc)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    sl_unfold_words
    refine (read_last (S := S1024x1) M4.view f4 hz _ _ _).trans ?_
    dsimp only
    simp only [View.readAt_eq_ld, View.ld_unit_zero (S := S1024x128) hz, View.ld_unit_zero (S := S1024x1) hz]
    rfl
  isplitl [H5]
  · iexists _; isplitr; swap; (· iexact H5); ipureintro
    sl_unfold_words
    refine (read_last (S := S1024x1) M5.view f5 hz _ _ _).trans ?_
    dsimp only
    simp only [View.readAt_eq_ld, View.ld_unit_zero (S := S1024x128) hz, View.ld_unit_zero (S := S1024x1) hz]
    rfl
  iexact HO

end Runs

end Cert.Kernel.Hand

end
-- ==== Proof.Kernel.Track.lean ====
/-
  The kernel along its grid. Point t = 8·i + j is row block i, column block j. The two running row sums live in the first two
  output windows' staging buffers, restarted at j = 0, added to at every j, written back at j = 7; the third output window's
  block is stored at j = 0, left alone afterwards and written back at j = 7. Here: the arrays as the region finds them (the two
  halves of the argument), each window's block at a point, what each output's buffer holds after each point (by recursion on
  the point), the pipeline's proof data, and the body's obligation at every point. The two real-half windows share one array,
  as do the two augmented-half windows: each pair holds its array by halves of the full share.
-/
import proofs.«181642_j55198919688654_1_alg».proof.Proof.Kernel.Point
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry, and the windows' blocks -/

/-- The device's buffers once the two slices of the argument have run: what the region finds. -/
abbrev W₀ (c : Dev nD) : Valuation τ sig (Elt F) := StableHlo.after (hostOps0 (F := F)) (fun b => m (c, b))

/-- The same, read at a TensorCore reference. -/
abbrev V (c : Dev nD) (b : Ref sig .tc) : Buf (Elt F) ((c : Thread nD τ).loc b) := W₀ m c b

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal type: real queries (row block i), real keys (column block j),
    augmented queries, augmented keys. -/
abbrev qReal (c : Dev nD) (t : Fin cfg0.N) : Vec F S1024x128 .f32 := blk m c 0 t
abbrev kReal (c : Dev nD) (t : Fin cfg0.N) : Vec F S1024x128 .f32 := blk m c 1 t
abbrev qAug (c : Dev nD) (t : Fin cfg0.N) : Vec F S1024x128 .f32 := blk m c 2 t
abbrev kAug (c : Dev nD) (t : Fin cfg0.N) : Vec F S1024x128 .f32 := blk m c 3 t

/-- j = 0 exactly at the points ≡ 0 (mod 8). -/
theorem isHead_iff : ∀ t : Fin cfg0.N, IsHead (grid0.coords t) ↔ t.val % 8 = 0 :=
  (by decide +kernel : ∀ t : Fin grid0.N, k0_cond1 (grid0.coords t) = 1#1 ↔ t.val % 8 = 0)

/-! ## What the outputs' buffers hold after each point -/

/-- The first running sum after point `n`. -/
def sumReal (c : Dev nD) : (n : ℕ) → n < cfg0.N → Vec F S1024x1 .f32
  | 0, hn => addReal (grid0.coords ⟨0, hn⟩) (qReal m c ⟨0, hn⟩) (kReal m c ⟨0, hn⟩) zeroCol
  | n + 1, hn =>
    if (n + 1) % 8 = 0 then addReal (grid0.coords ⟨n + 1, hn⟩) (qReal m c ⟨n + 1, hn⟩) (kReal m c ⟨n + 1, hn⟩) zeroCol
    else addReal (grid0.coords ⟨n + 1, hn⟩) (qReal m c ⟨n + 1, hn⟩) (kReal m c ⟨n + 1, hn⟩) (sumReal c n (Nat.lt_of_succ_lt hn))

/-- The second running sum after point `n`. -/
def sumAug (c : Dev nD) : (n : ℕ) → n < cfg0.N → Vec F S1024x1 .f32
  | 0, hn => addAug (grid0.coords ⟨0, hn⟩) (qAug m c ⟨0, hn⟩) (kAug m c ⟨0, hn⟩) zeroCol'
  | n + 1, hn =>
    if (n + 1) % 8 = 0 then addAug (grid0.coords ⟨n + 1, hn⟩) (qAug m c ⟨n + 1, hn⟩) (kAug m c ⟨n + 1, hn⟩) zeroCol'
    else addAug (grid0.coords ⟨n + 1, hn⟩) (qAug m c ⟨n + 1, hn⟩) (kAug m c ⟨n + 1, hn⟩) (sumAug c n (Nat.lt_of_succ_lt hn))

/-- The positive-pair block after point `n`: stored at j = 0, kept afterwards. -/
def posAt (c : Dev nD) : (n : ℕ) → n < cfg0.N → Vec F S1024x1 .f32
  | 0, hn => posBlock (qReal m c ⟨0, hn⟩) (qAug m c ⟨0, hn⟩)
  | n + 1, hn =>
    if (n + 1) % 8 = 0 then posBlock (qReal m c ⟨n + 1, hn⟩) (qAug m c ⟨n + 1, hn⟩)
    else posAt c n (Nat.lt_of_succ_lt hn)

theorem sumReal_head (c : Dev nD) (t : Fin cfg0.N) (h : t.val % 8 = 0) :
    sumReal m c t.val t.isLt = addReal (grid0.coords t) (qReal m c t) (kReal m c t) zeroCol := by
  obtain ⟨n, hn⟩ := t
  cases n with
  | zero => rfl
  | succ n => exact (if_pos h).trans rfl

theorem sumReal_step (c : Dev nD) (t : Fin cfg0.N) (h : ¬ t.val % 8 = 0) :
    sumReal m c t.val t.isLt = addReal (grid0.coords t) (qReal m c t) (kReal m c t)
      (sumReal m c (t.val - 1) (Nat.lt_of_le_of_lt (Nat.sub_le _ _) t.isLt)) := by
  obtain ⟨n, hn⟩ := t
  cases n with
  | zero => exact absurd (Nat.zero_mod _) h
  | succ n => exact (if_neg h).trans rfl

theorem sumAug_head (c : Dev nD) (t : Fin cfg0.N) (h : t.val % 8 = 0) :
    sumAug m c t.val t.isLt = addAug (grid0.coords t) (qAug m c t) (kAug m c t) zeroCol' := by
  obtain ⟨n, hn⟩ := t
  cases n with
  | zero => rfl
  | succ n => exact (if_pos h).trans rfl

theorem sumAug_step (c : Dev nD) (t : Fin cfg0.N) (h : ¬ t.val % 8 = 0) :
    sumAug m c t.val t.isLt = addAug (grid0.coords t) (qAug m c t) (kAug m c t)
      (sumAug m c (t.val - 1) (Nat.lt_of_le_of_lt (Nat.sub_le _ _) t.isLt)) := by
  obtain ⟨n, hn⟩ := t
  cases n with
  | zero => exact absurd (Nat.zero_mod _) h
  | succ n => exact (if_neg h).trans rfl

theorem posAt_head (c : Dev nD) (t : Fin cfg0.N) (h : t.val % 8 = 0) :
    posAt m c t.val t.isLt = posBlock (qReal m c t) (qAug m c t) := by
  obtain ⟨n, hn⟩ := t
  cases n with
  | zero => rfl
  | succ n => exact (if_pos h).trans rfl

theorem posAt_step (c : Dev nD) (t : Fin cfg0.N) (h : ¬ t.val % 8 = 0) :
    posAt m c t.val t.isLt = posAt m c (t.val - 1) (Nat.lt_of_le_of_lt (Nat.sub_le _ _) t.isLt) := by
  obtain ⟨n, hn⟩ := t
  cases n with
  | zero => exact absurd (Nat.zero_mod _) h
  | succ n => exact (if_neg h).trans rfl

/-! ## The pipeline's proof data -/

/-- The arrays as the region finds them; after the body each input's buffer at its block and the outputs' at the running
    values above; nothing carried outside the staging buffers; each shared array held by halves; nothing owed. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => sumReal m c t.val t.isLt
    | ⟨5, _⟩ => sumAug m c t.val t.isLt
    | ⟨6, _⟩ => posAt m c t.val t.isLt
  Φ _ := BI.emp
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = sumReal m c t.val t.isLt := by dsimp only [dats]
theorem after_5 (c : Dev nD) (t : Fin cfg0.N) : (dats m 0 c).after 5 t = sumAug m c t.val t.isLt := by dsimp only [dats]
theorem after_6 (c : Dev nD) (t : Fin cfg0.N) : (dats m 0 c).after 6 t = posAt m c t.val t.isLt := by dsimp only [dats]

/-! ## What the body finds in each staging buffer -/

/-- Each input's current buffer holds its block at every point, fetched there or not: the body only reads it, and
    unfetched the block index has not moved. -/
theorem before_0 (c : Dev nD) (t : Fin cfg0.N) (d) : (dats m 0 c).before 0 t d = blk m c 0 t :=
  ((dats m 0 c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)
theorem before_3 (c : Dev nD) (t : Fin cfg0.N) (d) : (dats m 0 c).before 3 t d = blk m c 3 t :=
  ((dats m 0 c).before_in_eq_fetched 3 rfl (fun _ => rfl) (fun _ _ _ => rfl)
      (fun t => by rw [after_3]; unfold Dat.blockOf blk; rw [A_eq]; try rfl) t d).trans
    (by unfold Dat.fetched Dat.blockOf blk; rw [A_eq]; try rfl)

/-- A point with j = 0 is the first, or follows a point with j = 7, where every output was written back. -/
theorem prev_flush_of_head {n : ℕ} (h : n % 8 = 0) (h0 : n ≠ 0) : (n - 1) % 8 = 7 := by omega

/-- At j = 0 each output's current buffer is fresh: it holds anything. -/
theorem before_4_head (c : Dev nD) (t : Fin cfg0.N) (h : t.val % 8 = 0) (d) : (dats m 0 c).before 4 t d = d :=
  Dat.before_out_reset _ 4 rfl t (by
    by_cases h0 : t.val = 0
    · exact .inl h0
    · exact .inr ⟨h0, (flush0_4 _).mpr (prev_flush_of_head h h0)⟩) d
theorem before_5_head (c : Dev nD) (t : Fin cfg0.N) (h : t.val % 8 = 0) (d) : (dats m 0 c).before 5 t d = d :=
  Dat.before_out_reset _ 5 rfl t (by
    by_cases h0 : t.val = 0
    · exact .inl h0
    · exact .inr ⟨h0, (flush0_5 _).mpr (prev_flush_of_head h h0)⟩) d
theorem before_6_head (c : Dev nD) (t : Fin cfg0.N) (h : t.val % 8 = 0) (d) : (dats m 0 c).before 6 t d = d :=
  Dat.before_out_reset _ 6 rfl t (by
    by_cases h0 : t.val = 0
    · exact .inl h0
    · exact .inr ⟨h0, (flush0_6 _).mpr (prev_flush_of_head h h0)⟩) d

/-- At j ≠ 0 the two running sums' buffers hold what the point before left: it did not write them back. -/
theorem before_4_tail (c : Dev nD) (t : Fin cfg0.N) (h : ¬ t.val % 8 = 0) (d) :
    (dats m 0 c).before 4 t d = sumReal m c (t.val - 1) (Nat.lt_of_le_of_lt (Nat.sub_le _ _) t.isLt) := by
  rw [Dat.before_out_kept _ 4 rfl t (by omega)
    (Bool.eq_false_iff.mpr fun hf => by have := (flush0_4 _).mp hf; dsimp only at this; omega) (fun _ => rfl) (fun _ _ => rfl)]
  dsimp only [dats]
theorem before_5_tail (c : Dev nD) (t : Fin cfg0.N) (h : ¬ t.val % 8 = 0) (d) :
    (dats m 0 c).before 5 t d = sumAug m c (t.val - 1) (Nat.lt_of_le_of_lt (Nat.sub_le _ _) t.isLt) := by
  rw [Dat.before_out_kept _ 5 rfl t (by omega)
    (Bool.eq_false_iff.mpr fun hf => by have := (flush0_5 _).mp hf; dsimp only at this; omega) (fun _ => rfl) (fun _ _ => rfl)]
  dsimp only [dats]

/-- The third output's window is live exactly at j = 0. -/
theorem idle6_head (t : Fin cfg0.N) (h : t.val % 8 = 0) : idle0 6 (grid0.coords t) = false := by
  show (!(k0_cond1 (grid0.coords t) == 1#1)) = false
  rw [show (k0_cond1 (grid0.coords t) == 1#1) = true from beq_iff_eq.mpr ((isHead_iff t).mpr h)]; rfl
theorem idle6_tail (t : Fin cfg0.N) (h : ¬ t.val % 8 = 0) : idle0 6 (grid0.coords t) = true := by
  show (!(k0_cond1 (grid0.coords t) == 1#1)) = true
  rw [show (k0_cond1 (grid0.coords t) == 1#1) = false from beq_eq_false_iff_ne.mpr fun e => h ((isHead_iff t).mp e)]; rfl

/-- At j ≠ 0 the third output's buffer still holds the block stored at the row block's j = 0: the points between are
    idle for its window and none wrote it back. By induction on the point: after a point with j = 0 the buffer holds
    what that point stored; after an idle one what it held before it. -/
theorem before_6_tail_aux (c : Dev nD) (n : ℕ) : ∀ (hn : n < cfg0.N), ¬ n % 8 = 0 → ∀ d,
    (dats m 0 c).before 6 ⟨n, hn⟩ d = posAt m c (n - 1) (Nat.lt_of_le_of_lt (Nat.sub_le _ _) hn) := by
  induction n using Nat.strong_induction_on with
  | _ n ih =>
    intro hn h d
    have hn0 : n ≠ 0 := by omega
    have hp : n - 1 < cfg0.N := Nat.lt_of_le_of_lt (Nat.sub_le _ _) hn
    rw [(dats m 0 c).before_of_pos 6 ⟨n, hn⟩ hn0 rfl d,
      if_neg (fun hf => by have := (flush0_6 _).mp hf; dsimp only at this; omega)]
    unfold Dat.left
    by_cases hk : (n - 1) % 8 = 0
    · rw [show cfg0.idle 6 (cfg0.grid.coords ⟨n - 1, hp⟩) = false from idle6_head ⟨n - 1, hp⟩ hk]
      dsimp only
      unfold Dat.kept
      rw [Pipeline.fill_of_clip_none 6 _ (fun _ => rfl) d ((dats m 0 c).after 6 ⟨n - 1, hp⟩), Window.fill_cut, after_6]
    · rw [show cfg0.idle 6 (cfg0.grid.coords ⟨n - 1, hp⟩) = true from idle6_tail ⟨n - 1, hp⟩ hk]
      dsimp only
      rw [ih (n - 1) (by omega) hp hk d]
      exact (posAt_step m c ⟨n - 1, hp⟩ hk).symm

theorem before_6_tail (c : Dev nD) (t : Fin cfg0.N) (h : ¬ t.val % 8 = 0) (d) :
    (dats m 0 c).before 6 t d = posAt m c (t.val - 1) (Nat.lt_of_le_of_lt (Nat.sub_le _ _) t.isLt) :=
  before_6_tail_aux m c t.val t.isLt h d

/-- What the body obligation asks of the third output's buffer after a point: at j = 0 and at j = 7 (where the window
    is written back) the stored block; between, the buffer as it was found. -/
theorem leaves6_head (c : Dev nD) (t : Fin cfg0.N) (h : t.val % 8 = 0) :
    (dats m 0 c).leavesExact 6 t = owns (c : Thread nD τ) (st0_6 t) fullShare (posAt m c t.val t.isLt) := by
  unfold Dat.leavesExact
  rw [show cfg0.idle 6 (cfg0.grid.coords t) = false from idle6_head t h, after_6]
theorem leaves6_last (c : Dev nD) (t : Fin cfg0.N) (h : t.val % 8 = 7) :
    (dats m 0 c).leavesExact 6 t = owns (c : Thread nD τ) (st0_6 t) fullShare (posAt m c t.val t.isLt) := by
  unfold Dat.leavesExact
  rw [show cfg0.idle 6 (cfg0.grid.coords t) = true from idle6_tail t (by omega),
    show (cfg0.win 6).flush t = true from (flush0_6 t).mpr h, after_6]
theorem leaves6_mid (c : Dev nD) (t : Fin cfg0.N) (h0 : ¬ t.val % 8 = 0) (h7 : ¬ t.val % 8 = 7) :
    (dats m 0 c).leavesExact 6 t = iprop(∃ d, owns (c : Thread nD τ) (st0_6 t) fullShare ((dats m 0 c).before 6 t d)) :=
  Dat.leavesExact_idle _ 6 t (idle6_tail t h0) (Bool.eq_false_iff.mpr fun hf => h7 ((flush0_6 t).mp hf))

/-! ## The body's obligation at every point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 800000 in
/-- The body at any point. The inputs' buffers hold their blocks. At j = 0 the outputs' buffers hold anything and the
    head run leaves the restarted sums and the stored block. At j ≠ 0 the two sums' buffers hold what the point before
    left and the later run adds to them; the third output's buffer passes through untouched: handed back as found
    between, and at j = 7, where it is written back, it still holds the block stored at j = 0. Nothing is carried outside
    the buffers and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  have hp : t.val - 1 < cfg0.N := Nat.lt_of_le_of_lt (Nat.sub_le _ _) t.isLt
  by_cases h0 : t.val % 8 = 0
  · have hc : IsHead (grid0.coords t) := (isHead_iff t).mpr h0
    simp only [before_4_head m c t h0, before_5_head m c t h0, before_6_head m c t h0]
    rw [leaves6_head m c t h0, sumReal_head m c t h0, sumAug_head m c t h0, posAt_head m c t h0]
    iintro ⟨HΦ, Ho, ⟨%d0, H0⟩, ⟨%d1, H1⟩, ⟨%d2, H2⟩, ⟨%d3, H3⟩, H4, H5, H6⟩
    iapply (run_head c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
      (qReal m c t) (kReal m c t) (qAug m c t) (kAug m c t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ IsHead (grid0.coords t) := fun e => h0 ((isHead_iff t).mp e)
    simp only [before_4_tail m c t h0, before_5_tail m c t h0]
    rw [sumReal_step m c t h0, sumAug_step m c t h0]
    by_cases h7 : t.val % 8 = 7
    · rw [leaves6_last m c t h7, posAt_step m c t h0]
      simp only [before_6_tail m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_tail c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
        (qReal m c t) (kReal m c t) (qAug m c t) (kAug m c t) (sumReal m c (t.val - 1) hp) (sumAug m c (t.val - 1) hp) hc
        (owns (c : Thread nD τ) (st0_6 t) fullShare (posAt m c (t.val - 1) hp)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves6_mid m c t h0 h7]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_tail c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
        (qReal m c t) (kReal m c t) (qAug m c t) (kAug m c t) (sumReal m c (t.val - 1) hp) (sumAug m c (t.val - 1) hp) hc
        (owns (c : Thread nD τ) (st0_6 t) fullShare ((dats m 0 c).before 6 t d6)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation: at a point with j = 0 the head run, elsewhere the later run, each between what the
    staging buffers hold before and after. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Whole.lean ====
/-
  The whole run of the program: the two slices of the argument, the kernel region over its 64 points, and the twelve host
  operations that turn the three result columns into the loss. From a memory with zero counters every weakly fair execution
  ends; the argument is unchanged, and the results hold what the host operations compute from the three columns the region
  wrote back. The two real-half windows read one array and the two augmented-half windows another: at the region's entry each
  of those arrays is split into two half shares, one per window, and joined again at the exit.
-/
import proofs.«181642_j55198919688654_1_alg».proof.Proof.Kernel.Track
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three result columns as the region leaves them: each row block written back once, at the end of its row of points. -/
abbrev colReal (c : Dev nD) : Vec F S8192x1 .f32 := (dats m 0 c).arrAt 4 cfg0.N
abbrev colAug (c : Dev nD) : Vec F S8192x1 .f32 := (dats m 0 c).arrAt 5 cfg0.N
abbrev colPos (c : Dev nD) : Vec F S8192x1 .f32 := (dats m 0 c).arrAt 6 cfg0.N

/-- The device's buffers at the region's exit: the three result arrays at those columns, every other buffer as the region
    found it. -/
def exitW (c : Dev nD) : Valuation τ sig (Elt F) :=
  Function.update (Function.update (Function.update (W₀ m c) (Proc.devRef .tc main_v2_0) (colReal m c))
    (Proc.devRef .tc main_v2_1) (colAug m c)) (Proc.devRef .tc main_v2_2) (colPos m c)

/-- The device's buffers after the host operations that follow the region. -/
def endW (c : Dev nD) : Valuation τ sig (Elt F) := StableHlo.after (hostOps1 (F := F)) (exitW m c)

/-! ## The pipeline's arrays against the buffers behind them -/

/-- The five distinct buffers behind the seven windows, one by one. -/
theorem arrBufs_eq (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c.tc : Thread nD τ).loc main_v0) ↦{fullShare} X main_v0) ∗ (((c.tc : Thread nD τ).loc main_v1) ↦{fullShare} X main_v1)
          ∗ (((c.tc : Thread nD τ).loc main_v2_0) ↦{fullShare} X main_v2_0) ∗ (((c.tc : Thread nD τ).loc main_v2_1) ↦{fullShare} X main_v2_1)
          ∗ (((c.tc : Thread nD τ).loc main_v2_2) ↦{fullShare} X main_v2_2)) := by
  unfold Pipeline.arrBufs
  exact bigSep_eq_bigSepL_of_eq [main_v0, main_v1, main_v2_0, main_v2_1, main_v2_2] (by decide) (by decide) _

/-- The pipeline's arrays window by window: each shared array by halves, each result array whole. -/
theorem arrays_eq (c : Dev nD) (X : (b : Ref sig .tc) → Buf (Elt F) ((c.tc : Thread nD τ).loc b)) :
    ((dats m 0 c).arrays (fun w => X (Pipeline.arrRef spec0 w)) : sProp 𝕄)
      = iprop((((c.tc : Thread nD τ).loc main_v0) ↦{fullShare.left} X main_v0) ∗ (((c.tc : Thread nD τ).loc main_v0) ↦{fullShare.right} X main_v0)
          ∗ (((c.tc : Thread nD τ).loc main_v1) ↦{fullShare.left} X main_v1) ∗ (((c.tc : Thread nD τ).loc main_v1) ↦{fullShare.right} X main_v1)
          ∗ (((c.tc : Thread nD τ).loc main_v2_0) ↦{fullShare} X main_v2_0) ∗ (((c.tc : Thread nD τ).loc main_v2_1) ↦{fullShare} X main_v2_1)
          ∗ (((c.tc : Thread nD τ).loc main_v2_2) ↦{fullShare} X main_v2_2)) := by
  unfold Dat.arrays
  rw [show (bigSep Finset.univ fun w : Fin cfg0.W => ((cfg0.win w).arr.view.loc (c.tc : Thread nD τ)
          ↦[(cfg0.win w).arr.view.set]{(dats m 0 c).share w} X (Pipeline.arrRef spec0 w) : sProp 𝕄))
        = bigSep Finset.univ fun w : Fin 7 => (((c.tc : Thread nD τ).loc (Pipeline.arrRef spec0 w)) ↦{(dats m 0 c).share w} X (Pipeline.arrRef spec0 w) : sProp 𝕄)
      from bigSep_congr fun w _ => by rw [(arr_whole0 w).set_eq_univ],
    bigSep_W0]
  rfl

/-- Both ways: the buffers behind the arrays, each whole, are the pipeline's arrays at the same contents — the two shared
    arrays split into their halves one way, joined the other. -/
theorem arrays_iff (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      ⊣⊢ (dats m 0 c).arrays (fun w => X (Pipeline.arrRef spec0 w)) := by
  rw [arrBufs_eq, arrays_eq]
  constructor
  · iintro ⟨H0, H1, H2, H3, H4⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H0r]; · iexact H0r
    isplitl [H1l]; · iexact H1l
    isplitl [H1r]; · iexact H1r
    isplitl [H2]; · iexact H2
    isplitl [H3]; · iexact H3
    iexact H4
  · iintro ⟨H0l, H0r, H1l, H1r, H2, H3, H4⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    isplitl [H0]; · iexact H0
    isplitl [H1]; · iexact H1
    isplitl [H2]; · iexact H2
    isplitl [H3]; · iexact H3
    iexact H4

/-! ## The contents at the region's exit and after the host operations -/

theorem exitW_v2_0 (c : Dev nD) : exitW m c (Proc.devRef .tc main_v2_0) = colReal m c := by
  unfold exitW
  rw [Function.update_of_ne (StableHlo.devRef_ne_of_ne (x := main_v2_0) (y := main_v2_2) (by decide)),
    Function.update_of_ne (StableHlo.devRef_ne_of_ne (x := main_v2_0) (y := main_v2_1) (by decide)), Function.update_self]

theorem exitW_v2_1 (c : Dev nD) : exitW m c (Proc.devRef .tc main_v2_1) = colAug m c := by
  unfold exitW
  rw [Function.update_of_ne (StableHlo.devRef_ne_of_ne (x := main_v2_1) (y := main_v2_2) (by decide)), Function.update_self]

theorem exitW_v2_2 (c : Dev nD) : exitW m c (Proc.devRef .tc main_v2_2) = colPos m c := by
  unfold exitW
  rw [Function.update_self]

/-- Off the three result arrays the exit contents are the entry contents. -/
theorem exitW_of_ne (c : Dev nD) (b : Ref sig .tc) (h0 : b ≠ main_v2_0) (h1 : b ≠ main_v2_1) (h2 : b ≠ main_v2_2) :
    exitW m c (Proc.devRef .tc b) = W₀ m c (Proc.devRef .tc b) := by
  unfold exitW
  rw [Function.update_of_ne (StableHlo.devRef_ne_of_ne h2), Function.update_of_ne (StableHlo.devRef_ne_of_ne h1),
    Function.update_of_ne (StableHlo.devRef_ne_of_ne h0)]

/-- Every window's array at the exit is the exit contents of the buffer behind it: an input's as the region found it, a
    result's the column written back. -/
theorem arrAt_exit (c : Dev nD) :
    ((dats m 0 c).arrAt · cfg0.N)
      = fun w : Fin cfg0.W => (exitW m c (Proc.devRef .tc (Pipeline.arrRef spec0 w)) : Buf (Elt F) ((cfg0.win w).arr.view.loc (c.tc : Thread nD τ))) := by
  funext w
  match w with
  | 0 => exact ((dats m 0 c).arrAt_in 0 rfl _).trans ((A_eq m c 0).trans (exitW_of_ne m c main_v0 (by decide) (by decide) (by decide)).symm)
  | 1 => exact ((dats m 0 c).arrAt_in 1 rfl _).trans ((A_eq m c 1).trans (exitW_of_ne m c main_v0 (by decide) (by decide) (by decide)).symm)
  | 2 => exact ((dats m 0 c).arrAt_in 2 rfl _).trans ((A_eq m c 2).trans (exitW_of_ne m c main_v1 (by decide) (by decide) (by decide)).symm)
  | 3 => exact ((dats m 0 c).arrAt_in 3 rfl _).trans ((A_eq m c 3).trans (exitW_of_ne m c main_v1 (by decide) (by decide) (by decide)).symm)
  | 4 => exact (exitW_v2_0 m c).symm
  | 5 => exact (exitW_v2_1 m c).symm
  | 6 => exact (exitW_v2_2 m c).symm
  | ⟨_ + 7, h⟩ => exact absurd h (Nat.not_lt.2 (Nat.le_add_left _ _))

/-- The references the two slices write, -/
abbrev headW : List (Ref sig .tc) := [main_v0, main_v1]
/-- and those the twelve operations after the region write. -/
abbrev tailW : List (Ref sig .tc) :=
  [main_v3, main_v4, main_v5, main_v6, main_v7, main_v8, main_cst, main_v9, main_cst_0, main_v10, main_v11, main_c]

theorem hostOps0_writes : (hostOps0 : List (HloOp τ sig (Elt F))).Forall fun op => op.writes ⊆ (headW.map (Proc.devRef (τ := τ) .tc)).toFinset := by
  simp only [List.Forall, StableHlo.unary_writes, Finset.singleton_subset_iff, List.mem_toFinset]
  and_intros <;> exact List.mem_map_of_mem (by decide)

theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.reshape_writes,
    Finset.singleton_subset_iff, List.mem_toFinset]
  and_intros <;> exact List.mem_map_of_mem (by decide)

/-- A buffer the operations after the region do not write ends at its exit contents. -/
theorem endW_of (c : Dev nD) (r : Ref sig .tc) (h : r ∉ tailW) : endW m c (Proc.devRef .tc r) = exitW m c (Proc.devRef .tc r) :=
  StableHlo.after_of_writes_sub hostOps1 _ hostOps1_writes h

/-- The argument is written by nothing: it ends as launched. -/
theorem endW_arg0 (c : Dev nD) : endW m c (Proc.devRef .tc main_arg0) = m ((c.tc : Thread nD τ).loc main_arg0) :=
  (endW_of m c main_arg0 (by decide)).trans ((exitW_of_ne m c main_arg0 (by decide) (by decide) (by decide)).trans
    (StableHlo.after_of_writes_sub hostOps0 _ hostOps0_writes (by decide)))

/-! ## The host operations after the region -/

/-- The buffers that bypass the region are held at the exit contents as they were at the entry: none is a result array. -/
theorem rest_exit (c : Dev nD) :
    (Pipeline.unscopedRest (Ix := Unit) (Name := ℕ) (U := UR sig nD τ) (Lvl := ℕ) spec0 c (V m c) : sProp 𝕄)
      = Pipeline.unscopedRest spec0 c (fun b => exitW m c b) := by
  unfold Pipeline.unscopedRest
  exact bigSep_congr fun b hb => by
    have hb' := (Finset.mem_sdiff.mp hb).2
    beta_reduce
    rw [exitW_of_ne m c b (fun e => hb' (Finset.mem_image.mpr ⟨4, Finset.mem_univ _, e.symm⟩))
      (fun e => hb' (Finset.mem_image.mpr ⟨5, Finset.mem_univ _, e.symm⟩))
      (fun e => hb' (Finset.mem_image.mpr ⟨6, Finset.mem_univ _, e.symm⟩))]

/-- The operations after the region write no window's array: each ends at its exit contents. -/
theorem arr_end (c : Dev nD) :
    (fun w : Fin cfg0.W => (endW m c (Proc.devRef .tc (Pipeline.arrRef spec0 w)) : Buf (Elt F) ((cfg0.win w).arr.view.loc (c.tc : Thread nD τ))))
      = fun w : Fin cfg0.W => (exitW m c (Proc.devRef .tc (Pipeline.arrRef spec0 w)) : Buf (Elt F) ((cfg0.win w).arr.view.loc (c.tc : Thread nD τ))) := by
  funext w
  match w with
  | 0 => exact endW_of m c main_v0 (by decide)
  | 1 => exact endW_of m c main_v0 (by decide)
  | 2 => exact endW_of m c main_v1 (by decide)
  | 3 => exact endW_of m c main_v1 (by decide)
  | 4 => exact endW_of m c main_v2_0 (by decide)
  | 5 => exact endW_of m c main_v2_1 (by decide)
  | 6 => exact endW_of m c main_v2_2 (by decide)
  | ⟨_ + 7, h⟩ => exact absurd h (Nat.not_lt.2 (Nat.le_add_left _ _))

/-- At the region's exit the arrays and the bypassing buffers are all the unscoped buffers, whole, at the exit contents:
    the halves of the two shared arrays joined. -/
theorem held_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (exitW m c) : sProp 𝕄) := by
  rw [← Pipeline.unscopedBufs_held (Ix := Unit) (Name := ℕ) (U := UR sig nD τ) (Lvl := ℕ) c (exitW m c),
    Pipeline.unscopedBufs_split₀ (Ix := Unit) (Name := ℕ) (U := UR sig nD τ) (Lvl := ℕ) cfgs (0 : Fin 1) winFacts₀0.arr_unscoped c,
    arrAt_exit, rest_exit]
  iintro ⟨HA, HR⟩
  isplitl [HA]
  · iapply (arrays_iff m c (fun b => exitW m c b)).2
    iexact HA
  · iexact HR

/-- After the operations the unscoped buffers, whole at the end contents, are the arrays as the region left them — the two
    shared arrays split again — and the bypassing buffers at the end contents. -/
theorem held_end (c : Dev nD) :
    (StableHlo.held (c.tc : Thread nD τ) (Pipeline.ucRefs τ sig) (endW m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => endW m c b)) := by
  rw [← Pipeline.unscopedBufs_held (Ix := Unit) (Name := ℕ) (U := UR sig nD τ) (Lvl := ℕ) c (endW m c),
    Pipeline.unscopedBufs_split₀ (Ix := Unit) (Name := ℕ) (U := UR sig nD τ) (Lvl := ℕ) cfgs (0 : Fin 1) winFacts₀0.arr_unscoped c,
    arrAt_exit, ← arr_end]
  iintro ⟨HA, HR⟩
  isplitl [HA]
  · iapply (arrays_iff m c (fun b => endW m c b)).1
    iexact HA
  · iexact HR

set_option backward.isDefEq.respectTransparency.types false in
/-- From the region's exit the twelve operations run to their end within the unscoped buffers, and hand the arrays back as
    the region left them, the bypassing buffers at the end contents. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => endW m c b)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain ([hostOps1].map StableHlo.seq)) Q' := by
  rw [show (Pipeline.chain ([hostOps1].map StableHlo.seq)
        : Prog (TpuEff nD τ sig (Elt F) (Pipeline.Sig Λ₀ (Fin 1) fun p => (pcfgs (F := F) p).Adm) .tc) PUnit)
      = (StableHlo.seq hostOps1 >>= fun _ => pure ⟨⟩) from rfl]
  iintro ⟨Hk, Hb, HA, HR⟩
  ihave H := (held_exit m c) $$ [HA HR]
  · isplitl [HA] <;> iassumption
  iapply (StableHlo.wp_seq (Variants.lift Variants.none) none Set.univ c (Pipeline.ucRefs τ sig) _ hostOps1
      (fun op hop => Pipeline.sub_ucRefs op ((List.forall_iff_forall_mem.mp hostOps1_sub) op hop))
      (fun op hop => (List.forall_iff_forall_mem.mp (show (hostOps1 : List (HloOp τ sig (Elt F))).Forall (fun op => op.fresh = ∅) from
        ⟨rfl, rfl, rfl, rfl, rfl, rfl, rfl, rfl, rfl, rfl, rfl, rfl⟩)) op hop) (exitW m c)) $$ [Hb H]
  · isplitl [Hb] <;> iassumption
  iintro ⟨Hb, H⟩
  rw [wp_pure]
  imodintro
  iapply Hk
  iapply (held_end m c)
  iexact H

/-- The run: it ends, the argument is as launched, and the two results are what the host tail computes from the three columns. -/
theorem run_main : θ_run defs (onTc (τ := τ) (main (F := F))) (s₀ m ρ) (fun r => ∀ c : Dev nD,
    r.2.mem ((c.tc : Thread nD τ).loc main_arg0) = m ((c.tc : Thread nD τ).loc main_arg0)
    ∧ r.2.mem ((c.tc : Thread nD τ).loc main_v11) = endW m c (Proc.devRef .tc main_v11)
    ∧ r.2.mem ((c.tc : Thread nD τ).loc main_c) = endW m c (Proc.devRef .tc main_c)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain ([hostOps1].map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m)
    (hmain := Pipeline.hmain_around cfgs 0 defs₀ Variants.none m main [hostOps0] [hostOps1] hostOps0_sub ⟨rfl, rfl⟩ (fun c => main_chain c))
    (hsplit := fun c => (arrays_iff m c (V m c)).1)
    (hpf := fun _ k => k.elim0)
    (X := fun _ => iprop(emp)) (Y := fun _ => iprop(emp))
    (Z := fun c => Pipeline.unscopedRest spec0 c (V m c))
    (Z' := fun c => Pipeline.unscopedRest spec0 c (fun b => endW m c b))
    (hX := fun c => by
      rw [Pipeline.unscopedRestP_none]
      iintro H
      isplitr; · iempintro
      iexact H)
    (hin := fun _ => by iintro ⟨-, -, -⟩; iempintro)
    (hout := fun _ => by rw [scopedRest0_eq]; iintro -; isplitr <;> iempintro)
    (htail := fun c Q' => tail_run m c Q')
    (QY := fun c s => ∀ b ∈ Pipeline.restRefs sig spec0, s.mem ((c.tc : Thread nD τ).loc b) = endW m c b)
    (hY := fun c s' => by
      iintro ⟨-, HU, HSI⟩
      unfold Pipeline.unscopedRest
      imodintro
      iapply (pointsTo_read_all (Pipeline.restRefs sig spec0) (fun b => (c.tc : Thread nD τ).loc b) (fun b => endW m c b) s')
      isplitl [HU] <;> iassumption)
    (hQ := fun s h c => ⟨((h c).2.2 main_arg0 (Pipeline.mem_restRefs_of main_arg0 (by decide) (by decide))).trans (endW_arg0 m c),
      (h c).2.2 main_v11 (Pipeline.mem_restRefs_of main_v11 (by decide) (by decide)),
      (h c).2.2 main_c (Pipeline.mem_restRefs_of main_c (by decide) (by decide))⟩)

end Cert.Kernel.Hand

end
-- ==== Proof.KernelIdeal.Point.lean ====
/-
  One grid point of the kernel. The grid is 8 row blocks by 8 column blocks; the body at point (i, j) normalises its four
  input blocks row by row (x / max(‖x‖, ε)), and
    * at j = 0 zeroes the two running row sums and stores exp(⟨q_real, q_aug⟩) of the normalised query rows;
    * at every j adds to the first running sum the row sums of exp(q_real · k_realᵀ) with the global diagonal masked out,
      and to the second the same for the augmented blocks.
  Here: what one point leaves in the three output blocks, as functions of the four input blocks and of the running sums it
  found, and the two runs of the body (j = 0; j ≠ 0) on any whole staging buffers.
-/
import proofs.«181642_j55198919688654_1_alg».proof.Proof.Gen.KernelIdeal
import proofs.«181642_j55198919688654_1_alg».proof.Proof.Gen.KernelIdeal.Skeleton
import proofs.«181642_j55198919688654_1_alg».proof.Proof.Gen.KernelIdeal.Launch
import proofs.«181642_j55198919688654_1_alg».proof.Proof.Gen.KernelIdeal.Points
import Idealize.ShloMosaic.Lib.Writes
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two coordinates of a grid point as the body reads them. -/
abbrev rowW (i : grid0.Coords) : BitVec 32 := BitVec.ofNat 32 (i 0).val
abbrev colW (i : grid0.Coords) : BitVec 32 := BitVec.ofNat 32 (i 1).val

/-- The first running sum after a point that found it at `a`: `a` plus the masked row sums of exp(q · kᵀ) of the normalised real blocks. -/
def addReal (i : grid0.Coords) (xq xk : Vec F S1024x128 .f32) (a : Vec F S1024x1 .f32) : Vec F S1024x1 .f32 :=
  k0_pay10 (rowW i) (colW i) (k0_pay1 xq) (k0_pay6 xk) a

/-- The second running sum likewise, of the augmented blocks. -/
def addAug (i : grid0.Coords) (yq yk : Vec F S1024x128 .f32) (a : Vec F S1024x1 .f32) : Vec F S1024x1 .f32 :=
  k0_pay11 (rowW i) (colW i) (k0_pay2 yq) (k0_pay7 yk) (k0_pay8 yk) (Scalar.ofBits .f32 0x2B8CBCCC#32) a

/-- exp of the row-wise inner product of the normalised real and augmented query blocks. -/
def posBlock (xq yq : Vec F S1024x128 .f32) : Vec F S1024x1 .f32 := k0_pay5 xq yq

/-- The zero block the running sums restart from at j = 0. -/
def zeroCol : Vec F S1024x1 .f32 := k0_pay3 (F := F)
def zeroCol' : Vec F S1024x1 .f32 := k0_pay4 (F := F)

/-- "j = 0", as the body computes it. -/
abbrev IsHead (i : grid0.Coords) : Prop := k0_cond1 i = 1#1

/-- The zero offsets every access of the body goes through. -/
private theorem hz : (![0, 0] : Fin 2 → Nat) = fun _ => 0 := funext fun a => by fin_cases a <;> rfl

/-- A buffer whose last store went through its whole block reads back that store's value. -/
private theorem read_last {S : Shape} {e : EltTy} {sp : Space} (v : View sig .tc sp S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

section Runs

variable (c : Dev nD) (i : grid0.Coords)
  (M0 : Memref sig .tc .vmem S1024x128 .f32) (h0 : M0.IsWhole) (M1 : Memref sig .tc .vmem S1024x128 .f32) (h1 : M1.IsWhole)
  (M2 : Memref sig .tc .vmem S1024x128 .f32) (h2 : M2.IsWhole) (M3 : Memref sig .tc .vmem S1024x128 .f32) (h3 : M3.IsWhole)
  (M4 : Memref sig .tc .vmem S1024x1 .f32) (h4 : M4.IsWhole) (M5 : Memref sig .tc .vmem S1024x1 .f32) (h5 : M5.IsWhole)
  (M6 : Memref sig .tc .vmem S1024x1 .f32) (h6 : M6.IsWhole)
  (x0 x1 x2 x3 : Vec F S1024x128 .f32) (a4 a5 : Vec F S1024x1 .f32)

local notation "BODY" => cc0_ntxent_kernel (F := F) i M0 h0 M1 h1 M2 h2 M3 h3 M4 h4 M5 h5 M6 h6

/-- A point with j = 0: whatever the three output buffers held, they end at the restarted sums and the positive block. -/
theorem run_head (hc : IsHead i) (Q : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ (∃ d, owns (c : Thread nD τ) M4 fullShare d) ∗ (∃ d, owns (c : Thread nD τ) M5 fullShare d) ∗ (∃ d, owns (c : Thread nD τ) M6 fullShare d)
        ∗ (iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare (addReal i x0 x1 zeroCol)
            ∗ owns (c : Thread nD τ) M5 fullShare (addAug i x2 x3 zeroCol')
            ∗ owns (c : Thread nD τ) M6 fullShare (posBlock x0 x2)) -∗ Q ⟨⟩))
      ⊢ wp frame (wpE (defs₀ (F := F)) Variants.none c none) Set.univ BODY Q := by
  simp only [cc0_ntxent_kernel_eq_skeleton]; unfold cc0_ntxent_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, Hk⟩
  subst hf0 hf1 hf2 hf3
  sl_exec (disch := first | exact hc)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    sl_unfold_words
    refine (read_last (S := S1024x1) M4.view f4 hz _ _ _).trans ?_
    dsimp only
    rw [View.readCov_unit_zero (S := S1024x1) _ hz]
    simp only [View.readAt_eq_ld, View.ld_unit_zero (S := S1024x128) hz]
    rfl
  isplitl [H5]
  · iexists _; isplitr; swap; (· iexact H5); ipureintro
    sl_unfold_words
    refine (read_last (S := S1024x1) M5.view f5 hz _ _ _).trans ?_
    dsimp only
    rw [View.readCov_unit_zero (S := S1024x1) _ hz]
    simp only [View.readAt_eq_ld, View.ld_unit_zero (S := S1024x128) hz]
    rfl
  iexists _; isplitr; swap; (· iexact H6); ipureintro
  refine (read_last (S := S1024x1) M6.view f6 hz _ _ _).trans ?_
  simp only [View.readAt_eq_ld, View.ld_unit_zero (S := S1024x128) hz]
  rfl

/-- A point with j ≠ 0: the running sums at `a4`, `a5` are added to; the third output's buffer, whatever holds it, is untouched. -/
theorem run_tail (hc : ¬ IsHead i) (O : sProp 𝕄) (Q : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare a4 ∗ owns (c : Thread nD τ) M5 fullShare a5 ∗ O
        ∗ (iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare (addReal i x0 x1 a4)
            ∗ owns (c : Thread nD τ) M5 fullShare (addAug i x2 x3 a5) ∗ O) -∗ Q ⟨⟩))
      ⊢ wp frame (wpE (defs₀ (F := F)) Variants.none c none) Set.univ BODY Q := by
  simp only [cc0_ntxent_kernel_eq_skeleton]; unfold cc0_ntxent_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HO, Hk⟩
  subst hf0 hf1 hf2 hf3 hf4 hf5
  sl_exec (disch := first | exact hc)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    sl_unfold_words
    refine (read_last (S := S1024x1) M4.view f4 hz _ _ _).trans ?_
    dsimp only
    simp only [View.readAt_eq_ld, View.ld_unit_zero (S := S1024x128) hz, View.ld_unit_zero (S := S1024x1) hz]
    rfl
  isplitl [H5]
  · iexists _; isplitr; swap; (· iexact H5); ipureintro
    sl_unfold_words
    refine (read_last (S := S1024x1) M5.view f5 hz _ _ _).trans ?_
    dsimp only
    simp only [View.readAt_eq_ld, View.ld_unit_zero (S := S1024x128) hz, View.ld_unit_zero (S := S1024x1) hz]
    rfl
  iexact HO

end Runs

end Cert.KernelIdeal.Hand

end
-- ==== Proof.KernelIdeal.Track.lean ====
/-
  The kernel along its grid. Point t = 8·i + j is row block i, column block j. The two running row sums live in the first two
  output windows' staging buffers, restarted at j = 0, added to at every j, written back at j = 7; the third output window's
  block is stored at j = 0, left alone afterwards and written back at j = 7. Here: the arrays as the region finds them (the two
  halves of the argument), each window's block at a point, what each output's buffer holds after each point (by recursion on
  the point), the pipeline's proof data, and the body's obligation at every point. The two real-half windows share one array,
  as do the two augmented-half windows: each pair holds its array by halves of the full share.
-/
import proofs.«181642_j55198919688654_1_alg».proof.Proof.KernelIdeal.Point
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry, and the windows' blocks -/

/-- The device's buffers once the two slices of the argument have run: what the region finds. -/
abbrev W₀ (c : Dev nD) : Valuation τ sig (Elt F) := StableHlo.after (hostOps0 (F := F)) (fun b => m (c, b))

/-- The same, read at a TensorCore reference. -/
abbrev V (c : Dev nD) (b : Ref sig .tc) : Buf (Elt F) ((c : Thread nD τ).loc b) := W₀ m c b

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal type: real queries (row block i), real keys (column block j),
    augmented queries, augmented keys. -/
abbrev qReal (c : Dev nD) (t : Fin cfg0.N) : Vec F S1024x128 .f32 := blk m c 0 t
abbrev kReal (c : Dev nD) (t : Fin cfg0.N) : Vec F S1024x128 .f32 := blk m c 1 t
abbrev qAug (c : Dev nD) (t : Fin cfg0.N) : Vec F S1024x128 .f32 := blk m c 2 t
abbrev kAug (c : Dev nD) (t : Fin cfg0.N) : Vec F S1024x128 .f32 := blk m c 3 t

/-- j = 0 exactly at the points ≡ 0 (mod 8). -/
theorem isHead_iff : ∀ t : Fin cfg0.N, IsHead (grid0.coords t) ↔ t.val % 8 = 0 :=
  (by decide +kernel : ∀ t : Fin grid0.N, k0_cond1 (grid0.coords t) = 1#1 ↔ t.val % 8 = 0)

/-! ## What the outputs' buffers hold after each point -/

/-- The first running sum after point `n`. -/
def sumReal (c : Dev nD) : (n : ℕ) → n < cfg0.N → Vec F S1024x1 .f32
  | 0, hn => addReal (grid0.coords ⟨0, hn⟩) (qReal m c ⟨0, hn⟩) (kReal m c ⟨0, hn⟩) zeroCol
  | n + 1, hn =>
    if (n + 1) % 8 = 0 then addReal (grid0.coords ⟨n + 1, hn⟩) (qReal m c ⟨n + 1, hn⟩) (kReal m c ⟨n + 1, hn⟩) zeroCol
    else addReal (grid0.coords ⟨n + 1, hn⟩) (qReal m c ⟨n + 1, hn⟩) (kReal m c ⟨n + 1, hn⟩) (sumReal c n (Nat.lt_of_succ_lt hn))

/-- The second running sum after point `n`. -/
def sumAug (c : Dev nD) : (n : ℕ) → n < cfg0.N → Vec F S1024x1 .f32
  | 0, hn => addAug (grid0.coords ⟨0, hn⟩) (qAug m c ⟨0, hn⟩) (kAug m c ⟨0, hn⟩) zeroCol'
  | n + 1, hn =>
    if (n + 1) % 8 = 0 then addAug (grid0.coords ⟨n + 1, hn⟩) (qAug m c ⟨n + 1, hn⟩) (kAug m c ⟨n + 1, hn⟩) zeroCol'
    else addAug (grid0.coords ⟨n + 1, hn⟩) (qAug m c ⟨n + 1, hn⟩) (kAug m c ⟨n + 1, hn⟩) (sumAug c n (Nat.lt_of_succ_lt hn))

/-- The positive-pair block after point `n`: stored at j = 0, kept afterwards. -/
def posAt (c : Dev nD) : (n : ℕ) → n < cfg0.N → Vec F S1024x1 .f32
  | 0, hn => posBlock (qReal m c ⟨0, hn⟩) (qAug m c ⟨0, hn⟩)
  | n + 1, hn =>
    if (n + 1) % 8 = 0 then posBlock (qReal m c ⟨n + 1, hn⟩) (qAug m c ⟨n + 1, hn⟩)
    else posAt c n (Nat.lt_of_succ_lt hn)

theorem sumReal_head (c : Dev nD) (t : Fin cfg0.N) (h : t.val % 8 = 0) :
    sumReal m c t.val t.isLt = addReal (grid0.coords t) (qReal m c t) (kReal m c t) zeroCol := by
  obtain ⟨n, hn⟩ := t
  cases n with
  | zero => rfl
  | succ n => exact (if_pos h).trans rfl

theorem sumReal_step (c : Dev nD) (t : Fin cfg0.N) (h : ¬ t.val % 8 = 0) :
    sumReal m c t.val t.isLt = addReal (grid0.coords t) (qReal m c t) (kReal m c t)
      (sumReal m c (t.val - 1) (Nat.lt_of_le_of_lt (Nat.sub_le _ _) t.isLt)) := by
  obtain ⟨n, hn⟩ := t
  cases n with
  | zero => exact absurd (Nat.zero_mod _) h
  | succ n => exact (if_neg h).trans rfl

theorem sumAug_head (c : Dev nD) (t : Fin cfg0.N) (h : t.val % 8 = 0) :
    sumAug m c t.val t.isLt = addAug (grid0.coords t) (qAug m c t) (kAug m c t) zeroCol' := by
  obtain ⟨n, hn⟩ := t
  cases n with
  | zero => rfl
  | succ n => exact (if_pos h).trans rfl

theorem sumAug_step (c : Dev nD) (t : Fin cfg0.N) (h : ¬ t.val % 8 = 0) :
    sumAug m c t.val t.isLt = addAug (grid0.coords t) (qAug m c t) (kAug m c t)
      (sumAug m c (t.val - 1) (Nat.lt_of_le_of_lt (Nat.sub_le _ _) t.isLt)) := by
  obtain ⟨n, hn⟩ := t
  cases n with
  | zero => exact absurd (Nat.zero_mod _) h
  | succ n => exact (if_neg h).trans rfl

theorem posAt_head (c : Dev nD) (t : Fin cfg0.N) (h : t.val % 8 = 0) :
    posAt m c t.val t.isLt = posBlock (qReal m c t) (qAug m c t) := by
  obtain ⟨n, hn⟩ := t
  cases n with
  | zero => rfl
  | succ n => exact (if_pos h).trans rfl

theorem posAt_step (c : Dev nD) (t : Fin cfg0.N) (h : ¬ t.val % 8 = 0) :
    posAt m c t.val t.isLt = posAt m c (t.val - 1) (Nat.lt_of_le_of_lt (Nat.sub_le _ _) t.isLt) := by
  obtain ⟨n, hn⟩ := t
  cases n with
  | zero => exact absurd (Nat.zero_mod _) h
  | succ n => exact (if_neg h).trans rfl

/-! ## The pipeline's proof data -/

/-- The arrays as the region finds them; after the body each input's buffer at its block and the outputs' at the running
    values above; nothing carried outside the staging buffers; each shared array held by halves; nothing owed. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => sumReal m c t.val t.isLt
    | ⟨5, _⟩ => sumAug m c t.val t.isLt
    | ⟨6, _⟩ => posAt m c t.val t.isLt
  Φ _ := BI.emp
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = sumReal m c t.val t.isLt := by dsimp only [dats]
theorem after_5 (c : Dev nD) (t : Fin cfg0.N) : (dats m 0 c).after 5 t = sumAug m c t.val t.isLt := by dsimp only [dats]
theorem after_6 (c : Dev nD) (t : Fin cfg0.N) : (dats m 0 c).after 6 t = posAt m c t.val t.isLt := by dsimp only [dats]

/-! ## What the body finds in each staging buffer -/

/-- Each input's current buffer holds its block at every point, fetched there or not: the body only reads it, and
    unfetched the block index has not moved. -/
theorem before_0 (c : Dev nD) (t : Fin cfg0.N) (d) : (dats m 0 c).before 0 t d = blk m c 0 t :=
  ((dats m 0 c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)
theorem before_3 (c : Dev nD) (t : Fin cfg0.N) (d) : (dats m 0 c).before 3 t d = blk m c 3 t :=
  ((dats m 0 c).before_in_eq_fetched 3 rfl (fun _ => rfl) (fun _ _ _ => rfl)
      (fun t => by rw [after_3]; unfold Dat.blockOf blk; rw [A_eq]; try rfl) t d).trans
    (by unfold Dat.fetched Dat.blockOf blk; rw [A_eq]; try rfl)

/-- A point with j = 0 is the first, or follows a point with j = 7, where every output was written back. -/
theorem prev_flush_of_head {n : ℕ} (h : n % 8 = 0) (h0 : n ≠ 0) : (n - 1) % 8 = 7 := by omega

/-- At j = 0 each output's current buffer is fresh: it holds anything. -/
theorem before_4_head (c : Dev nD) (t : Fin cfg0.N) (h : t.val % 8 = 0) (d) : (dats m 0 c).before 4 t d = d :=
  Dat.before_out_reset _ 4 rfl t (by
    by_cases h0 : t.val = 0
    · exact .inl h0
    · exact .inr ⟨h0, (flush0_4 _).mpr (prev_flush_of_head h h0)⟩) d
theorem before_5_head (c : Dev nD) (t : Fin cfg0.N) (h : t.val % 8 = 0) (d) : (dats m 0 c).before 5 t d = d :=
  Dat.before_out_reset _ 5 rfl t (by
    by_cases h0 : t.val = 0
    · exact .inl h0
    · exact .inr ⟨h0, (flush0_5 _).mpr (prev_flush_of_head h h0)⟩) d
theorem before_6_head (c : Dev nD) (t : Fin cfg0.N) (h : t.val % 8 = 0) (d) : (dats m 0 c).before 6 t d = d :=
  Dat.before_out_reset _ 6 rfl t (by
    by_cases h0 : t.val = 0
    · exact .inl h0
    · exact .inr ⟨h0, (flush0_6 _).mpr (prev_flush_of_head h h0)⟩) d

/-- At j ≠ 0 the two running sums' buffers hold what the point before left: it did not write them back. -/
theorem before_4_tail (c : Dev nD) (t : Fin cfg0.N) (h : ¬ t.val % 8 = 0) (d) :
    (dats m 0 c).before 4 t d = sumReal m c (t.val - 1) (Nat.lt_of_le_of_lt (Nat.sub_le _ _) t.isLt) := by
  rw [Dat.before_out_kept _ 4 rfl t (by omega)
    (Bool.eq_false_iff.mpr fun hf => by have := (flush0_4 _).mp hf; dsimp only at this; omega) (fun _ => rfl) (fun _ _ => rfl)]
  dsimp only [dats]
theorem before_5_tail (c : Dev nD) (t : Fin cfg0.N) (h : ¬ t.val % 8 = 0) (d) :
    (dats m 0 c).before 5 t d = sumAug m c (t.val - 1) (Nat.lt_of_le_of_lt (Nat.sub_le _ _) t.isLt) := by
  rw [Dat.before_out_kept _ 5 rfl t (by omega)
    (Bool.eq_false_iff.mpr fun hf => by have := (flush0_5 _).mp hf; dsimp only at this; omega) (fun _ => rfl) (fun _ _ => rfl)]
  dsimp only [dats]

/-- The third output's window is live exactly at j = 0. -/
theorem idle6_head (t : Fin cfg0.N) (h : t.val % 8 = 0) : idle0 6 (grid0.coords t) = false := by
  show (!(k0_cond1 (grid0.coords t) == 1#1)) = false
  rw [show (k0_cond1 (grid0.coords t) == 1#1) = true from beq_iff_eq.mpr ((isHead_iff t).mpr h)]; rfl
theorem idle6_tail (t : Fin cfg0.N) (h : ¬ t.val % 8 = 0) : idle0 6 (grid0.coords t) = true := by
  show (!(k0_cond1 (grid0.coords t) == 1#1)) = true
  rw [show (k0_cond1 (grid0.coords t) == 1#1) = false from beq_eq_false_iff_ne.mpr fun e => h ((isHead_iff t).mp e)]; rfl

/-- At j ≠ 0 the third output's buffer still holds the block stored at the row block's j = 0: the points between are
    idle for its window and none wrote it back. By induction on the point: after a point with j = 0 the buffer holds
    what that point stored; after an idle one what it held before it. -/
theorem before_6_tail_aux (c : Dev nD) (n : ℕ) : ∀ (hn : n < cfg0.N), ¬ n % 8 = 0 → ∀ d,
    (dats m 0 c).before 6 ⟨n, hn⟩ d = posAt m c (n - 1) (Nat.lt_of_le_of_lt (Nat.sub_le _ _) hn) := by
  induction n using Nat.strong_induction_on with
  | _ n ih =>
    intro hn h d
    have hn0 : n ≠ 0 := by omega
    have hp : n - 1 < cfg0.N := Nat.lt_of_le_of_lt (Nat.sub_le _ _) hn
    rw [(dats m 0 c).before_of_pos 6 ⟨n, hn⟩ hn0 rfl d,
      if_neg (fun hf => by have := (flush0_6 _).mp hf; dsimp only at this; omega)]
    unfold Dat.left
    by_cases hk : (n - 1) % 8 = 0
    · rw [show cfg0.idle 6 (cfg0.grid.coords ⟨n - 1, hp⟩) = false from idle6_head ⟨n - 1, hp⟩ hk]
      dsimp only
      unfold Dat.kept
      rw [Pipeline.fill_of_clip_none 6 _ (fun _ => rfl) d ((dats m 0 c).after 6 ⟨n - 1, hp⟩), Window.fill_cut, after_6]
    · rw [show cfg0.idle 6 (cfg0.grid.coords ⟨n - 1, hp⟩) = true from idle6_tail ⟨n - 1, hp⟩ hk]
      dsimp only
      rw [ih (n - 1) (by omega) hp hk d]
      exact (posAt_step m c ⟨n - 1, hp⟩ hk).symm

theorem before_6_tail (c : Dev nD) (t : Fin cfg0.N) (h : ¬ t.val % 8 = 0) (d) :
    (dats m 0 c).before 6 t d = posAt m c (t.val - 1) (Nat.lt_of_le_of_lt (Nat.sub_le _ _) t.isLt) :=
  before_6_tail_aux m c t.val t.isLt h d

/-- What the body obligation asks of the third output's buffer after a point: at j = 0 and at j = 7 (where the window
    is written back) the stored block; between, the buffer as it was found. -/
theorem leaves6_head (c : Dev nD) (t : Fin cfg0.N) (h : t.val % 8 = 0) :
    (dats m 0 c).leavesExact 6 t = owns (c : Thread nD τ) (st0_6 t) fullShare (posAt m c t.val t.isLt) := by
  unfold Dat.leavesExact
  rw [show cfg0.idle 6 (cfg0.grid.coords t) = false from idle6_head t h, after_6]
theorem leaves6_last (c : Dev nD) (t : Fin cfg0.N) (h : t.val % 8 = 7) :
    (dats m 0 c).leavesExact 6 t = owns (c : Thread nD τ) (st0_6 t) fullShare (posAt m c t.val t.isLt) := by
  unfold Dat.leavesExact
  rw [show cfg0.idle 6 (cfg0.grid.coords t) = true from idle6_tail t (by omega),
    show (cfg0.win 6).flush t = true from (flush0_6 t).mpr h, after_6]
theorem leaves6_mid (c : Dev nD) (t : Fin cfg0.N) (h0 : ¬ t.val % 8 = 0) (h7 : ¬ t.val % 8 = 7) :
    (dats m 0 c).leavesExact 6 t = iprop(∃ d, owns (c : Thread nD τ) (st0_6 t) fullShare ((dats m 0 c).before 6 t d)) :=
  Dat.leavesExact_idle _ 6 t (idle6_tail t h0) (Bool.eq_false_iff.mpr fun hf => h7 ((flush0_6 t).mp hf))

/-! ## The body's obligation at every point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 800000 in
/-- The body at any point. The inputs' buffers hold their blocks. At j = 0 the outputs' buffers hold anything and the
    head run leaves the restarted sums and the stored block. At j ≠ 0 the two sums' buffers hold what the point before
    left and the later run adds to them; the third output's buffer passes through untouched: handed back as found
    between, and at j = 7, where it is written back, it still holds the block stored at j = 0. Nothing is carried outside
    the buffers and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  have hp : t.val - 1 < cfg0.N := Nat.lt_of_le_of_lt (Nat.sub_le _ _) t.isLt
  by_cases h0 : t.val % 8 = 0
  · have hc : IsHead (grid0.coords t) := (isHead_iff t).mpr h0
    simp only [before_4_head m c t h0, before_5_head m c t h0, before_6_head m c t h0]
    rw [leaves6_head m c t h0, sumReal_head m c t h0, sumAug_head m c t h0, posAt_head m c t h0]
    iintro ⟨HΦ, Ho, ⟨%d0, H0⟩, ⟨%d1, H1⟩, ⟨%d2, H2⟩, ⟨%d3, H3⟩, H4, H5, H6⟩
    iapply (run_head c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
      (qReal m c t) (kReal m c t) (qAug m c t) (kAug m c t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ IsHead (grid0.coords t) := fun e => h0 ((isHead_iff t).mp e)
    simp only [before_4_tail m c t h0, before_5_tail m c t h0]
    rw [sumReal_step m c t h0, sumAug_step m c t h0]
    by_cases h7 : t.val % 8 = 7
    · rw [leaves6_last m c t h7, posAt_step m c t h0]
      simp only [before_6_tail m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_tail c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
        (qReal m c t) (kReal m c t) (qAug m c t) (kAug m c t) (sumReal m c (t.val - 1) hp) (sumAug m c (t.val - 1) hp) hc
        (owns (c : Thread nD τ) (st0_6 t) fullShare (posAt m c (t.val - 1) hp)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves6_mid m c t h0 h7]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_tail c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
        (qReal m c t) (kReal m c t) (qAug m c t) (kAug m c t) (sumReal m c (t.val - 1) hp) (sumAug m c (t.val - 1) hp) hc
        (owns (c : Thread nD τ) (st0_6 t) fullShare ((dats m 0 c).before 6 t d6)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation: at a point with j = 0 the head run, elsewhere the later run, each between what the
    staging buffers hold before and after. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Whole.lean ====
/-
  The whole run of the program: the two slices of the argument, the kernel region over its 64 points, and the twelve host
  operations that turn the three result columns into the loss. From a memory with zero counters every weakly fair execution
  ends; the argument is unchanged, and the results hold what the host operations compute from the three columns the region
  wrote back. The two real-half windows read one array and the two augmented-half windows another: at the region's entry each
  of those arrays is split into two half shares, one per window, and joined again at the exit.
-/
import proofs.«181642_j55198919688654_1_alg».proof.Proof.KernelIdeal.Track
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three result columns as the region leaves them: each row block written back once, at the end of its row of points. -/
abbrev colReal (c : Dev nD) : Vec F S8192x1 .f32 := (dats m 0 c).arrAt 4 cfg0.N
abbrev colAug (c : Dev nD) : Vec F S8192x1 .f32 := (dats m 0 c).arrAt 5 cfg0.N
abbrev colPos (c : Dev nD) : Vec F S8192x1 .f32 := (dats m 0 c).arrAt 6 cfg0.N

/-- The device's buffers at the region's exit: the three result arrays at those columns, every other buffer as the region
    found it. -/
def exitW (c : Dev nD) : Valuation τ sig (Elt F) :=
  Function.update (Function.update (Function.update (W₀ m c) (Proc.devRef .tc main_v2_0) (colReal m c))
    (Proc.devRef .tc main_v2_1) (colAug m c)) (Proc.devRef .tc main_v2_2) (colPos m c)

/-- The device's buffers after the host operations that follow the region. -/
def endW (c : Dev nD) : Valuation τ sig (Elt F) := StableHlo.after (hostOps1 (F := F)) (exitW m c)

/-! ## The pipeline's arrays against the buffers behind them -/

/-- The five distinct buffers behind the seven windows, one by one. -/
theorem arrBufs_eq (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c.tc : Thread nD τ).loc main_v0) ↦{fullShare} X main_v0) ∗ (((c.tc : Thread nD τ).loc main_v1) ↦{fullShare} X main_v1)
          ∗ (((c.tc : Thread nD τ).loc main_v2_0) ↦{fullShare} X main_v2_0) ∗ (((c.tc : Thread nD τ).loc main_v2_1) ↦{fullShare} X main_v2_1)
          ∗ (((c.tc : Thread nD τ).loc main_v2_2) ↦{fullShare} X main_v2_2)) := by
  unfold Pipeline.arrBufs
  exact bigSep_eq_bigSepL_of_eq [main_v0, main_v1, main_v2_0, main_v2_1, main_v2_2] (by decide) (by decide) _

/-- The pipeline's arrays window by window: each shared array by halves, each result array whole. -/
theorem arrays_eq (c : Dev nD) (X : (b : Ref sig .tc) → Buf (Elt F) ((c.tc : Thread nD τ).loc b)) :
    ((dats m 0 c).arrays (fun w => X (Pipeline.arrRef spec0 w)) : sProp 𝕄)
      = iprop((((c.tc : Thread nD τ).loc main_v0) ↦{fullShare.left} X main_v0) ∗ (((c.tc : Thread nD τ).loc main_v0) ↦{fullShare.right} X main_v0)
          ∗ (((c.tc : Thread nD τ).loc main_v1) ↦{fullShare.left} X main_v1) ∗ (((c.tc : Thread nD τ).loc main_v1) ↦{fullShare.right} X main_v1)
          ∗ (((c.tc : Thread nD τ).loc main_v2_0) ↦{fullShare} X main_v2_0) ∗ (((c.tc : Thread nD τ).loc main_v2_1) ↦{fullShare} X main_v2_1)
          ∗ (((c.tc : Thread nD τ).loc main_v2_2) ↦{fullShare} X main_v2_2)) := by
  unfold Dat.arrays
  rw [show (bigSep Finset.univ fun w : Fin cfg0.W => ((cfg0.win w).arr.view.loc (c.tc : Thread nD τ)
          ↦[(cfg0.win w).arr.view.set]{(dats m 0 c).share w} X (Pipeline.arrRef spec0 w) : sProp 𝕄))
        = bigSep Finset.univ fun w : Fin 7 => (((c.tc : Thread nD τ).loc (Pipeline.arrRef spec0 w)) ↦{(dats m 0 c).share w} X (Pipeline.arrRef spec0 w) : sProp 𝕄)
      from bigSep_congr fun w _ => by rw [(arr_whole0 w).set_eq_univ],
    bigSep_W0]
  rfl

/-- Both ways: the buffers behind the arrays, each whole, are the pipeline's arrays at the same contents — the two shared
    arrays split into their halves one way, joined the other. -/
theorem arrays_iff (c : Dev nD) (X : (b : Ref sig .tc) → Buf (Elt F) ((c.tc : Thread nD τ).loc b)) :
    (Pipeline.arrBufs (Ix := Unit) (Name := ℕ) (U := UR sig nD τ) (Lvl := ℕ) spec0 c X : sProp 𝕄)
      ⊣⊢ (dats m 0 c).arrays (fun w => X (Pipeline.arrRef spec0 w)) := by
  rw [arrBufs_eq, arrays_eq]
  constructor
  · iintro ⟨H0, H1, H2, H3, H4⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H0r]; · iexact H0r
    isplitl [H1l]; · iexact H1l
    isplitl [H1r]; · iexact H1r
    isplitl [H2]; · iexact H2
    isplitl [H3]; · iexact H3
    iexact H4
  · iintro ⟨H0l, H0r, H1l, H1r, H2, H3, H4⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    isplitl [H0]; · iexact H0
    isplitl [H1]; · iexact H1
    isplitl [H2]; · iexact H2
    isplitl [H3]; · iexact H3
    iexact H4

/-! ## The contents at the region's exit and after the host operations -/

theorem exitW_v2_0 (c : Dev nD) : exitW m c (Proc.devRef .tc main_v2_0) = colReal m c := by
  unfold exitW
  rw [Function.update_of_ne (StableHlo.devRef_ne_of_ne (x := main_v2_0) (y := main_v2_2) (by decide)),
    Function.update_of_ne (StableHlo.devRef_ne_of_ne (x := main_v2_0) (y := main_v2_1) (by decide)), Function.update_self]

theorem exitW_v2_1 (c : Dev nD) : exitW m c (Proc.devRef .tc main_v2_1) = colAug m c := by
  unfold exitW
  rw [Function.update_of_ne (StableHlo.devRef_ne_of_ne (x := main_v2_1) (y := main_v2_2) (by decide)), Function.update_self]

theorem exitW_v2_2 (c : Dev nD) : exitW m c (Proc.devRef .tc main_v2_2) = colPos m c := by
  unfold exitW
  rw [Function.update_self]

/-- Off the three result arrays the exit contents are the entry contents. -/
theorem exitW_of_ne (c : Dev nD) (b : Ref sig .tc) (h0 : b ≠ main_v2_0) (h1 : b ≠ main_v2_1) (h2 : b ≠ main_v2_2) :
    exitW m c (Proc.devRef .tc b) = W₀ m c (Proc.devRef .tc b) := by
  unfold exitW
  rw [Function.update_of_ne (StableHlo.devRef_ne_of_ne h2), Function.update_of_ne (StableHlo.devRef_ne_of_ne h1),
    Function.update_of_ne (StableHlo.devRef_ne_of_ne h0)]

/-- Every window's array at the exit is the exit contents of the buffer behind it: an input's as the region found it, a
    result's the column written back. -/
theorem arrAt_exit (c : Dev nD) :
    ((dats m 0 c).arrAt · cfg0.N)
      = fun w : Fin cfg0.W => (exitW m c (Proc.devRef .tc (Pipeline.arrRef spec0 w)) : Buf (Elt F) ((cfg0.win w).arr.view.loc (c.tc : Thread nD τ))) := by
  funext w
  match w with
  | 0 => exact ((dats m 0 c).arrAt_in 0 rfl _).trans ((A_eq m c 0).trans (exitW_of_ne m c main_v0 (by decide) (by decide) (by decide)).symm)
  | 1 => exact ((dats m 0 c).arrAt_in 1 rfl _).trans ((A_eq m c 1).trans (exitW_of_ne m c main_v0 (by decide) (by decide) (by decide)).symm)
  | 2 => exact ((dats m 0 c).arrAt_in 2 rfl _).trans ((A_eq m c 2).trans (exitW_of_ne m c main_v1 (by decide) (by decide) (by decide)).symm)
  | 3 => exact ((dats m 0 c).arrAt_in 3 rfl _).trans ((A_eq m c 3).trans (exitW_of_ne m c main_v1 (by decide) (by decide) (by decide)).symm)
  | 4 => exact (exitW_v2_0 m c).symm
  | 5 => exact (exitW_v2_1 m c).symm
  | 6 => exact (exitW_v2_2 m c).symm
  | ⟨_ + 7, h⟩ => exact absurd h (Nat.not_lt.2 (Nat.le_add_left _ _))

/-- The references the two slices write, -/
abbrev headW : List (Ref sig .tc) := [main_v0, main_v1]
/-- and those the twelve operations after the region write. -/
abbrev tailW : List (Ref sig .tc) :=
  [main_v3, main_v4, main_v5, main_v6, main_v7, main_v8, main_cst, main_v9, main_cst_0, main_v10, main_v11, main_c]

theorem hostOps0_writes : (hostOps0 : List (HloOp τ sig (Elt F))).Forall fun op => op.writes ⊆ (headW.map (Proc.devRef (τ := τ) .tc)).toFinset := by
  simp only [List.Forall, StableHlo.unary_writes, Finset.singleton_subset_iff, List.mem_toFinset]
  and_intros <;> exact List.mem_map_of_mem (by decide)

theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.reshape_writes,
    Finset.singleton_subset_iff, List.mem_toFinset]
  and_intros <;> exact List.mem_map_of_mem (by decide)

/-- A buffer the operations after the region do not write ends at its exit contents. -/
theorem endW_of (c : Dev nD) (r : Ref sig .tc) (h : r ∉ tailW) : endW m c (Proc.devRef .tc r) = exitW m c (Proc.devRef .tc r) :=
  StableHlo.after_of_writes_sub hostOps1 _ hostOps1_writes h

/-- The argument is written by nothing: it ends as launched. -/
theorem endW_arg0 (c : Dev nD) : endW m c (Proc.devRef .tc main_arg0) = m ((c.tc : Thread nD τ).loc main_arg0) :=
  (endW_of m c main_arg0 (by decide)).trans ((exitW_of_ne m c main_arg0 (by decide) (by decide) (by decide)).trans
    (StableHlo.after_of_writes_sub hostOps0 _ hostOps0_writes (by decide)))

/-! ## The host operations after the region -/

/-- The buffers that bypass the region are held at the exit contents as they were at the entry: none is a result array. -/
theorem rest_exit (c : Dev nD) :
    (Pipeline.unscopedRest (Ix := Unit) (Name := ℕ) (U := UR sig nD τ) (Lvl := ℕ) spec0 c (V m c) : sProp 𝕄)
      = Pipeline.unscopedRest spec0 c (fun b => exitW m c b) := by
  unfold Pipeline.unscopedRest
  exact bigSep_congr fun b hb => by
    have hb' := (Finset.mem_sdiff.mp hb).2
    beta_reduce
    rw [exitW_of_ne m c b (fun e => hb' (Finset.mem_image.mpr ⟨4, Finset.mem_univ _, e.symm⟩))
      (fun e => hb' (Finset.mem_image.mpr ⟨5, Finset.mem_univ _, e.symm⟩))
      (fun e => hb' (Finset.mem_image.mpr ⟨6, Finset.mem_univ _, e.symm⟩))]

/-- The operations after the region write no window's array: each ends at its exit contents. -/
theorem arr_end (c : Dev nD) :
    (fun w : Fin cfg0.W => (endW m c (Proc.devRef .tc (Pipeline.arrRef spec0 w)) : Buf (Elt F) ((cfg0.win w).arr.view.loc (c.tc : Thread nD τ))))
      = fun w : Fin cfg0.W => (exitW m c (Proc.devRef .tc (Pipeline.arrRef spec0 w)) : Buf (Elt F) ((cfg0.win w).arr.view.loc (c.tc : Thread nD τ))) := by
  funext w
  match w with
  | 0 => exact endW_of m c main_v0 (by decide)
  | 1 => exact endW_of m c main_v0 (by decide)
  | 2 => exact endW_of m c main_v1 (by decide)
  | 3 => exact endW_of m c main_v1 (by decide)
  | 4 => exact endW_of m c main_v2_0 (by decide)
  | 5 => exact endW_of m c main_v2_1 (by decide)
  | 6 => exact endW_of m c main_v2_2 (by decide)
  | ⟨_ + 7, h⟩ => exact absurd h (Nat.not_lt.2 (Nat.le_add_left _ _))

/-- At the region's exit the arrays and the bypassing buffers are all the unscoped buffers, whole, at the exit contents:
    the halves of the two shared arrays joined. -/
theorem held_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (exitW m c) : sProp 𝕄) := by
  rw [← Pipeline.unscopedBufs_held (Ix := Unit) (Name := ℕ) (U := UR sig nD τ) (Lvl := ℕ) c (exitW m c),
    Pipeline.unscopedBufs_split₀ (Ix := Unit) (Name := ℕ) (U := UR sig nD τ) (Lvl := ℕ) cfgs (0 : Fin 1) winFacts₀0.arr_unscoped c,
    arrAt_exit, rest_exit]
  iintro ⟨HA, HR⟩
  isplitl [HA]
  · iapply (arrays_iff m c (fun b => exitW m c b)).2
    iexact HA
  · iexact HR

/-- After the operations the unscoped buffers, whole at the end contents, are the arrays as the region left them — the two
    shared arrays split again — and the bypassing buffers at the end contents. -/
theorem held_end (c : Dev nD) :
    (StableHlo.held (c.tc : Thread nD τ) (Pipeline.ucRefs τ sig) (endW m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => endW m c b)) := by
  rw [← Pipeline.unscopedBufs_held (Ix := Unit) (Name := ℕ) (U := UR sig nD τ) (Lvl := ℕ) c (endW m c),
    Pipeline.unscopedBufs_split₀ (Ix := Unit) (Name := ℕ) (U := UR sig nD τ) (Lvl := ℕ) cfgs (0 : Fin 1) winFacts₀0.arr_unscoped c,
    arrAt_exit, ← arr_end]
  iintro ⟨HA, HR⟩
  isplitl [HA]
  · iapply (arrays_iff m c (fun b => endW m c b)).1
    iexact HA
  · iexact HR

set_option backward.isDefEq.respectTransparency.types false in
/-- From the region's exit the twelve operations run to their end within the unscoped buffers, and hand the arrays back as
    the region left them, the bypassing buffers at the end contents. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => endW m c b)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain ([hostOps1].map StableHlo.seq)) Q' := by
  rw [show (Pipeline.chain ([hostOps1].map StableHlo.seq)
        : Prog (TpuEff nD τ sig (Elt F) (Pipeline.Sig Λ₀ (Fin 1) fun p => (pcfgs (F := F) p).Adm) .tc) PUnit)
      = (StableHlo.seq hostOps1 >>= fun _ => pure ⟨⟩) from rfl]
  iintro ⟨Hk, Hb, HA, HR⟩
  ihave H := (held_exit m c) $$ [HA HR]
  · isplitl [HA] <;> iassumption
  iapply (StableHlo.wp_seq (Variants.lift Variants.none) none Set.univ c (Pipeline.ucRefs τ sig) _ hostOps1
      (fun op hop => Pipeline.sub_ucRefs op ((List.forall_iff_forall_mem.mp hostOps1_sub) op hop))
      (fun op hop => (List.forall_iff_forall_mem.mp (show (hostOps1 : List (HloOp τ sig (Elt F))).Forall (fun op => op.fresh = ∅) from
        ⟨rfl, rfl, rfl, rfl, rfl, rfl, rfl, rfl, rfl, rfl, rfl, rfl⟩)) op hop) (exitW m c)) $$ [Hb H]
  · isplitl [Hb] <;> iassumption
  iintro ⟨Hb, H⟩
  rw [wp_pure]
  imodintro
  iapply Hk
  iapply (held_end m c)
  iexact H

/-- The run: it ends, the argument is as launched, and the two results are what the host tail computes from the three columns. -/
theorem run_main : θ_run defs (onTc (τ := τ) (main (F := F))) (s₀ m ρ) (fun r => ∀ c : Dev nD,
    r.2.mem ((c.tc : Thread nD τ).loc main_arg0) = m ((c.tc : Thread nD τ).loc main_arg0)
    ∧ r.2.mem ((c.tc : Thread nD τ).loc main_v11) = endW m c (Proc.devRef .tc main_v11)
    ∧ r.2.mem ((c.tc : Thread nD τ).loc main_c) = endW m c (Proc.devRef .tc main_c)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain ([hostOps1].map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m)
    (hmain := Pipeline.hmain_around cfgs 0 defs₀ Variants.none m main [hostOps0] [hostOps1] hostOps0_sub ⟨rfl, rfl⟩ (fun c => main_chain c))
    (hsplit := fun c => (arrays_iff m c (V m c)).1)
    (hpf := fun _ k => k.elim0)
    (X := fun _ => iprop(emp)) (Y := fun _ => iprop(emp))
    (Z := fun c => Pipeline.unscopedRest spec0 c (V m c))
    (Z' := fun c => Pipeline.unscopedRest spec0 c (fun b => endW m c b))
    (hX := fun c => by
      rw [Pipeline.unscopedRestP_none]
      iintro H
      isplitr; · iempintro
      iexact H)
    (hin := fun _ => by iintro ⟨-, -, -⟩; iempintro)
    (hout := fun _ => by rw [scopedRest0_eq]; iintro -; isplitr <;> iempintro)
    (htail := fun c Q' => tail_run m c Q')
    (QY := fun c s => ∀ b ∈ Pipeline.restRefs sig spec0, s.mem ((c.tc : Thread nD τ).loc b) = endW m c b)
    (hY := fun c s' => by
      iintro ⟨-, HU, HSI⟩
      unfold Pipeline.unscopedRest
      imodintro
      iapply (pointsTo_read_all (Pipeline.restRefs sig spec0) (fun b => (c.tc : Thread nD τ).loc b) (fun b => endW m c b) s')
      isplitl [HU] <;> iassumption)
    (hQ := fun s h c => ⟨((h c).2.2 main_arg0 (Pipeline.mem_restRefs_of main_arg0 (by decide) (by decide))).trans (endW_arg0 m c),
      (h c).2.2 main_v11 (Pipeline.mem_restRefs_of main_v11 (by decide) (by decide)),
      (h c).2.2 main_c (Pipeline.mem_restRefs_of main_c (by decide) (by decide))⟩)

end Cert.KernelIdeal.Hand

end
-- ==== Proof.KernelIdeal.GridBlocks.lean ====
/-
  The kernel's blocks and result columns, read against the argument matrix z (16384 × 128). Point t = 8·i + j reads, from the
  first half of z, the query rows 1024·i … and the key rows 1024·j …, and from the second half the rows 8192 + 1024·i … and
  8192 + 1024·j …; row block i of each result column is what point 8·i + 7 left in that output's buffer.
-/
import proofs.«181642_j55198919688654_1_alg».proof.Proof.KernelIdeal.Track
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The argument on core `c`, read as a matrix. -/
def argMat (c : Dev nD) : Fin 16384 → Fin 128 → EReal := fun r d => m ((c.tc : Thread nD τ).loc main_arg0) (ix2 r d)

/-- The grid has 64 points. -/
theorem N64 : cfg0.N = 64 := N_0

/-- The windows' block indices at a point: the query and result windows move with the row block, the key windows with the
    column block; none moves along the second axis. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0 :=
  (by decide +kernel : ∀ t : Fin grid0.N, _)

theorem index_facts_out : ∀ t : Fin cfg0.N,
    win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

/-- The first half of the argument, as the region finds it: rows 0 … 8191. -/
theorem V_v0_apply (c : Dev nD) (i : S8192x128.Idx) (k : S16384x128.Idx)
    (h0 : (k 0).val = (i 0).val) (h1 : (k 1).val = (i 1).val) :
    (V m c main_v0 : S8192x128.Idx → EReal) i = (m ((c.tc : Thread nD τ).loc main_arg0) : S16384x128.Idx → EReal) k := by
  have e : (V m c main_v0 : S8192x128.Idx → EReal)
      = extractStridedSlice S8192x128 ![0, 0] (m ((c.tc : Thread nD τ).loc main_arg0)) slices_S16384x128_S8192x128_0_0 := by
    dsimp only [V, W₀, hostOps0]; after_results
  rw [e]
  refine extractStridedSlice_apply _ _ _ i k fun a => ?_
  match a with
  | ⟨0, _⟩ => show (k 0).val = 0 + (i 0).val; omega
  | ⟨1, _⟩ => show (k 1).val = 0 + (i 1).val; omega

/-- The second half: rows 8192 … 16383. -/
theorem V_v1_apply (c : Dev nD) (i : S8192x128.Idx) (k : S16384x128.Idx)
    (h0 : (k 0).val = 8192 + (i 0).val) (h1 : (k 1).val = (i 1).val) :
    (V m c main_v1 : S8192x128.Idx → EReal) i = (m ((c.tc : Thread nD τ).loc main_arg0) : S16384x128.Idx → EReal) k := by
  have e : (V m c main_v1 : S8192x128.Idx → EReal)
      = extractStridedSlice S8192x128 ![8192, 0] (m ((c.tc : Thread nD τ).loc main_arg0)) slices_S16384x128_S8192x128_8192_0 := by
    dsimp only [V, W₀, hostOps0]; after_results
  rw [e]
  refine extractStridedSlice_apply _ _ _ i k fun a => ?_
  match a with
  | ⟨0, _⟩ => show (k 0).val = 8192 + (i 0).val; omega
  | ⟨1, _⟩ => show (k 1).val = 0 + (i 1).val; omega

/-! ## The result columns at the region's exit -/

/-- A result column assembled from what the last point of each row block left: row 1024·i + r of the column is row r of
    what point 8·i + 7 left. -/
def colOf (f : (n : ℕ) → n < cfg0.N → Vec Ideal S1024x1 .f32) : Vec Ideal S8192x1 .f32 := fun j =>
  f (8 * ((j 0).val / 1024) + 7) (by have := idx2_lt0 j; have := N64; omega)
    (ix2 ⟨(j 0).val % 1024, Nat.mod_lt _ (by decide)⟩ (0 : Fin 1))

theorem colOf_apply (f : (n : ℕ) → n < cfg0.N → Vec Ideal S1024x1 .f32) (i : S8192x1.Idx) (n : ℕ) (hn : n < cfg0.N)
    (y : S1024x1.Idx) (h7 : n % 8 = 7) (hi : (i 0).val = 1024 * (n / 8) + (y 0).val) : colOf f i = f n hn y := by
  have hy0 := idx2_lt0 y
  have hy1 := idx2_lt1 y
  have key : ∀ n' (hn' : n' < cfg0.N) (y' : S1024x1.Idx), n' = n → y' = y → f n' hn' y' = f n hn y := by
    intro n' hn' y' h1 h2; subst h1; subst h2; rfl
  unfold colOf
  refine key _ _ _ (by omega) (funext fun a => ?_)
  match a with
  | ⟨0, _⟩ => exact Fin.ext (by show (i 0).val % 1024 = (y 0).val; omega)
  | ⟨1, _⟩ => exact Fin.ext (by show (0 : ℕ) = (y 1).val; omega)

/-- An index of result column 1 is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2_0).slice (win0_4.rect t)).set ↔ _
  rw [View.set_slice_whole, Rect.mem_set_unit]
  exact Iff.rfl

/-- What a point with j = 7 writes back is its block of the assembled column. -/
theorem flushed4_eq (c : Dev nD) (t : Fin cfg0.N) (hf : (cfg0.win 4).flush t = true) :
    (dats m 0 c).flushed 4 t = ((cfg0.win 4).blk t).view.read (Elt Ideal) (colOf (sumReal m c)) := by
  have h7 : t.val % 8 = 7 := (flush0_4 t).mp hf
  obtain ⟨e0, -⟩ := index_facts_out t
  show (cfg0.win 4).cut (grid0.coords t) ((dats m 0 c).after 4 t) = _
  rw [after_4]
  funext y
  rw [View.read_apply]
  show sumReal m c t.val t.isLt y = colOf (sumReal m c) (((cfg0.win 4).blk t).view.emb y)
  refine (colOf_apply _ _ t.val t.isLt y h7 ?_).symm
  show win0_4.index t (0 : Fin 2) * 1024 + 1 * (y 0).val = _
  rw [e0]; omega

/-- An index of result column 2 is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

/-- What a point with j = 7 writes back is its block of the assembled column. -/
theorem flushed5_eq (c : Dev nD) (t : Fin cfg0.N) (hf : (cfg0.win 5).flush t = true) :
    (dats m 0 c).flushed 5 t = ((cfg0.win 5).blk t).view.read (Elt Ideal) (colOf (sumAug m c)) := by
  have h7 : t.val % 8 = 7 := (flush0_5 t).mp hf
  obtain ⟨-, -, e0, -⟩ := index_facts_out t
  show (cfg0.win 5).cut (grid0.coords t) ((dats m 0 c).after 5 t) = _
  rw [after_5]
  funext y
  rw [View.read_apply]
  show sumAug m c t.val t.isLt y = colOf (sumAug m c) (((cfg0.win 5).blk t).view.emb y)
  refine (colOf_apply _ _ t.val t.isLt y h7 ?_).symm
  show win0_5.index t (0 : Fin 2) * 1024 + 1 * (y 0).val = _
  rw [e0]; omega

/-- An index of result column 3 is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

/-- What a point with j = 7 writes back is its block of the assembled column. -/
theorem flushed6_eq (c : Dev nD) (t : Fin cfg0.N) (hf : (cfg0.win 6).flush t = true) :
    (dats m 0 c).flushed 6 t = ((cfg0.win 6).blk t).view.read (Elt Ideal) (colOf (posAt m c)) := by
  have h7 : t.val % 8 = 7 := (flush0_6 t).mp hf
  obtain ⟨-, -, -, -, e0, -⟩ := index_facts_out t
  show (cfg0.win 6).cut (grid0.coords t) ((dats m 0 c).after 6 t) = _
  rw [after_6]
  funext y
  rw [View.read_apply]
  show posAt m c t.val t.isLt y = colOf (posAt m c) (((cfg0.win 6).blk t).view.emb y)
  refine (colOf_apply _ _ t.val t.isLt y h7 ?_).symm
  show win0_6.index t (0 : Fin 2) * 1024 + 1 * (y 0).val = _
  rw [e0]; omega

/-- The grid coordinates of point t. -/
theorem coords_row (t : Fin cfg0.N) : ((grid0.coords t) 0).val = t.val / 8 :=
  (by decide +kernel : ∀ t : Fin grid0.N, ((grid0.coords t) 0).val = t.val / 8) t
theorem coords_col (t : Fin cfg0.N) : ((grid0.coords t) 1).val = t.val % 8 :=
  (by decide +kernel : ∀ t : Fin grid0.N, ((grid0.coords t) 1).val = t.val % 8) t

/-- The four input blocks at a point, as rows of the argument. -/
theorem qReal_apply (c : Dev nD) (t : Fin cfg0.N) (r : Fin 1024) (d : Fin 128) :
    qReal m c t (ix2 r d) = argMat m c ⟨1024 * (t.val / 8) + r.val, by have := t.isLt; have := N64; omega⟩ d := by
  obtain ⟨ea, eb, -⟩ := index_facts t
  show (blk m c 0 t : Vec Ideal S1024x128 .f32) (ix2 r d) = _
  unfold blk argMat
  rw [View.read_apply]
  show V m c main_v0 (((cfg0.win 0).blk t).view.emb (ix2 r d)) = _
  refine V_v0_apply m c _ _ ?_ ?_
  · show 1024 * (t.val / 8) + r.val = win0_0.index t (0 : Fin 2) * 1024 + 1 * r.val
    rw [ea]; omega
  · show d.val = win0_0.index t (1 : Fin 2) * 128 + 1 * d.val
    rw [eb]; omega
theorem kReal_apply (c : Dev nD) (t : Fin cfg0.N) (q : Fin 1024) (d : Fin 128) :
    kReal m c t (ix2 q d) = argMat m c ⟨1024 * (t.val % 8) + q.val, by omega⟩ d := by
  obtain ⟨-, -, ea, eb, -⟩ := index_facts t
  show (blk m c 1 t : Vec Ideal S1024x128 .f32) (ix2 q d) = _
  unfold blk argMat
  rw [View.read_apply]
  show V m c main_v0 (((cfg0.win 1).blk t).view.emb (ix2 q d)) = _
  refine V_v0_apply m c _ _ ?_ ?_
  · show 1024 * (t.val % 8) + q.val = win0_1.index t (0 : Fin 2) * 1024 + 1 * q.val
    rw [ea]; omega
  · show d.val = win0_1.index t (1 : Fin 2) * 128 + 1 * d.val
    rw [eb]; omega
theorem qAug_apply (c : Dev nD) (t : Fin cfg0.N) (r : Fin 1024) (d : Fin 128) :
    qAug m c t (ix2 r d) = argMat m c ⟨8192 + (1024 * (t.val / 8) + r.val), by have := t.isLt; have := N64; omega⟩ d := by
  obtain ⟨-, -, -, -, ea, eb, -⟩ := index_facts t
  show (blk m c 2 t : Vec Ideal S1024x128 .f32) (ix2 r d) = _
  unfold blk argMat
  rw [View.read_apply]
  show V m c main_v1 (((cfg0.win 2).blk t).view.emb (ix2 r d)) = _
  refine V_v1_apply m c _ _ ?_ ?_
  · show 8192 + (1024 * (t.val / 8) + r.val) = 8192 + (win0_2.index t (0 : Fin 2) * 1024 + 1 * r.val)
    rw [ea]; omega
  · show d.val = win0_2.index t (1 : Fin 2) * 128 + 1 * d.val
    rw [eb]; omega
theorem kAug_apply (c : Dev nD) (t : Fin cfg0.N) (q : Fin 1024) (d : Fin 128) :
    kAug m c t (ix2 q d) = argMat m c ⟨8192 + (1024 * (t.val % 8) + q.val), by omega⟩ d := by
  obtain ⟨-, -, -, -, -, -, ea, eb⟩ := index_facts t
  show (blk m c 3 t : Vec Ideal S1024x128 .f32) (ix2 q d) = _
  unfold blk argMat
  rw [View.read_apply]
  show V m c main_v1 (((cfg0.win 3).blk t).view.emb (ix2 q d)) = _
  refine V_v1_apply m c _ _ ?_ ?_
  · show 8192 + (1024 * (t.val % 8) + q.val) = 8192 + (win0_3.index t (0 : Fin 2) * 1024 + 1 * q.val)
    rw [ea]; omega
  · show d.val = win0_3.index t (1 : Fin 2) * 128 + 1 * d.val
    rw [eb]; omega

/-- Row block `ib` of each result column at the region's exit is what the last point of row `ib` left. -/
theorem arrAt4_apply (c : Dev nD) (ib : Fin 8) (r : Fin 1024) :
    ((dats m 0 c).arrAt 4 cfg0.N : Vec Ideal S8192x1 .f32) (ix2 ⟨1024 * ib.val + r.val, by omega⟩ (0 : Fin 1))
      = sumReal m c (8 * ib.val + 7) (by have := N64; omega) (ix2 r (0 : Fin 1)) := by
  have hN := N64
  have ht : 8 * ib.val + 7 < cfg0.N := by omega
  have hf : (cfg0.win 4).flush ⟨8 * ib.val + 7, ht⟩ = true := (flush0_4 _).mpr (by show (8 * ib.val + 7) % 8 = 7; omega)
  have e0 : win0_4.index ⟨8 * ib.val + 7, ht⟩ (0 : Fin 2) = (8 * ib.val + 7) / 8 := (index_facts_out ⟨8 * ib.val + 7, ht⟩).1
  have e1 : win0_4.index ⟨8 * ib.val + 7, ht⟩ (1 : Fin 2) = 0 := (index_facts_out ⟨8 * ib.val + 7, ht⟩).2.1
  refine ((dats m 0 c).arrAt_apply_of_mem 4 (colOf (sumReal m c)) (flushed4_eq m c) cfg0.N ⟨8 * ib.val + 7, ht⟩ _ ht hf ?_).trans ?_
  · rw [mem_blk4]
    intro a
    match a with
    | ⟨0, _⟩ =>
      show win0_4.index ⟨8 * ib.val + 7, ht⟩ (0 : Fin 2) * 1024 ≤ 1024 * ib.val + r.val
        ∧ 1024 * ib.val + r.val < win0_4.index ⟨8 * ib.val + 7, ht⟩ (0 : Fin 2) * 1024 + 1024
      rw [e0]; omega
    | ⟨1, _⟩ =>
      show win0_4.index ⟨8 * ib.val + 7, ht⟩ (1 : Fin 2) * 1 ≤ 0 ∧ 0 < win0_4.index ⟨8 * ib.val + 7, ht⟩ (1 : Fin 2) * 1 + 1
      rw [e1]; omega
  · exact colOf_apply _ _ _ _ (ix2 r (0 : Fin 1)) (by omega) (by show 1024 * ib.val + r.val = 1024 * ((8 * ib.val + 7) / 8) + r.val; omega)
theorem arrAt5_apply (c : Dev nD) (ib : Fin 8) (r : Fin 1024) :
    ((dats m 0 c).arrAt 5 cfg0.N : Vec Ideal S8192x1 .f32) (ix2 ⟨1024 * ib.val + r.val, by omega⟩ (0 : Fin 1))
      = sumAug m c (8 * ib.val + 7) (by have := N64; omega) (ix2 r (0 : Fin 1)) := by
  have hN := N64
  have ht : 8 * ib.val + 7 < cfg0.N := by omega
  have hf : (cfg0.win 5).flush ⟨8 * ib.val + 7, ht⟩ = true := (flush0_5 _).mpr (by show (8 * ib.val + 7) % 8 = 7; omega)
  have e0 : win0_5.index ⟨8 * ib.val + 7, ht⟩ (0 : Fin 2) = (8 * ib.val + 7) / 8 := (index_facts_out ⟨8 * ib.val + 7, ht⟩).2.2.1
  have e1 : win0_5.index ⟨8 * ib.val + 7, ht⟩ (1 : Fin 2) = 0 := (index_facts_out ⟨8 * ib.val + 7, ht⟩).2.2.2.1
  refine ((dats m 0 c).arrAt_apply_of_mem 5 (colOf (sumAug m c)) (flushed5_eq m c) cfg0.N ⟨8 * ib.val + 7, ht⟩ _ ht hf ?_).trans ?_
  · rw [mem_blk5]
    intro a
    match a with
    | ⟨0, _⟩ =>
      show win0_5.index ⟨8 * ib.val + 7, ht⟩ (0 : Fin 2) * 1024 ≤ 1024 * ib.val + r.val
        ∧ 1024 * ib.val + r.val < win0_5.index ⟨8 * ib.val + 7, ht⟩ (0 : Fin 2) * 1024 + 1024
      rw [e0]; omega
    | ⟨1, _⟩ =>
      show win0_5.index ⟨8 * ib.val + 7, ht⟩ (1 : Fin 2) * 1 ≤ 0 ∧ 0 < win0_5.index ⟨8 * ib.val + 7, ht⟩ (1 : Fin 2) * 1 + 1
      rw [e1]; omega
  · exact colOf_apply _ _ _ _ (ix2 r (0 : Fin 1)) (by omega) (by show 1024 * ib.val + r.val = 1024 * ((8 * ib.val + 7) / 8) + r.val; omega)
theorem arrAt6_apply (c : Dev nD) (ib : Fin 8) (r : Fin 1024) :
    ((dats m 0 c).arrAt 6 cfg0.N : Vec Ideal S8192x1 .f32) (ix2 ⟨1024 * ib.val + r.val, by omega⟩ (0 : Fin 1))
      = posAt m c (8 * ib.val + 7) (by have := N64; omega) (ix2 r (0 : Fin 1)) := by
  have hN := N64
  have ht : 8 * ib.val + 7 < cfg0.N := by omega
  have hf : (cfg0.win 6).flush ⟨8 * ib.val + 7, ht⟩ = true := (flush0_6 _).mpr (by show (8 * ib.val + 7) % 8 = 7; omega)
  have e0 : win0_6.index ⟨8 * ib.val + 7, ht⟩ (0 : Fin 2) = (8 * ib.val + 7) / 8 := (index_facts_out ⟨8 * ib.val + 7, ht⟩).2.2.2.2.1
  have e1 : win0_6.index ⟨8 * ib.val + 7, ht⟩ (1 : Fin 2) = 0 := (index_facts_out ⟨8 * ib.val + 7, ht⟩).2.2.2.2.2
  refine ((dats m 0 c).arrAt_apply_of_mem 6 (colOf (posAt m c)) (flushed6_eq m c) cfg0.N ⟨8 * ib.val + 7, ht⟩ _ ht hf ?_).trans ?_
  · rw [mem_blk6]
    intro a
    match a with
    | ⟨0, _⟩ =>
      show win0_6.index ⟨8 * ib.val + 7, ht⟩ (0 : Fin 2) * 1024 ≤ 1024 * ib.val + r.val
        ∧ 1024 * ib.val + r.val < win0_6.index ⟨8 * ib.val + 7, ht⟩ (0 : Fin 2) * 1024 + 1024
      rw [e0]; omega
    | ⟨1, _⟩ =>
      show win0_6.index ⟨8 * ib.val + 7, ht⟩ (1 : Fin 2) * 1 ≤ 0 ∧ 0 < win0_6.index ⟨8 * ib.val + 7, ht⟩ (1 : Fin 2) * 1 + 1
      rw [e1]; omega
  · exact colOf_apply _ _ _ _ (ix2 r (0 : Fin 1)) (by omega) (by show 1024 * ib.val + r.val = 1024 * ((8 * ib.val + 7) / 8) + r.val; omega)

end Cert.KernelIdeal.Hand

end
-- ==== Proof.Spec.lean ====
/-
  The mathematics of the NT-Xent loss both programs compute, on the extended reals, index by index.
  z is a 16384 × 128 matrix. Every row is divided by max(‖row‖, ε). The first 8192 normalised rows are the "real" half u, the
  last 8192 the "augmented" half v. For a half w, S_w(i) = Σ_{j ≠ i} exp(⟨w_i, w_j⟩ / 1); the positive pair is
  P(i) = exp(⟨u_i, v_i⟩ / 1); the loss is −(Σ_i log(P(i) / (S_u(i) · S_v(i)))) / 8192.
-/
import Idealize.ShloMosaic.PureOps.Ideal
import Idealize.ShloMosaic.PureOps.Ideal.Laws

noncomputable section

namespace Cert.NTXent

open Idealize.ShloMosaic

/-- The clamp ε of the norm, the divisor 1 of the temperature, and the count 8192, as the programs' literals denote them. -/
def eps : EReal := Ideal.ofBits .f32 0x2B8CBCCC#32
def one : EReal := Ideal.ofBits .f32 0x3F800000#32
def count : EReal := Ideal.ofBits .f32 0x46000000#32

/-- Entry (r, k) of a matrix with 128 columns divided by the clamped norm of its row r. -/
def unit {n : ℕ} (x : Fin n → Fin 128 → EReal) (r : Fin n) (k : Fin 128) : EReal :=
  Ideal.div (x r k) (max (Ideal.sqrt (∑ d : Fin 128, x r d * x r d)) eps)

/-- exp of the inner product of two rows over the temperature. -/
def expDot (a b : Fin 128 → EReal) : EReal := Ideal.exp (Ideal.div (∑ d : Fin 128, a d * b d) one)

/-- The two halves of the normalised matrix. -/
def realHalf (z : Fin 16384 → Fin 128 → EReal) (i : Fin 8192) : Fin 128 → EReal :=
  unit z ⟨i.val, by omega⟩
def augHalf (z : Fin 16384 → Fin 128 → EReal) (i : Fin 8192) : Fin 128 → EReal :=
  unit z ⟨8192 + i.val, by omega⟩

/-- Σ_{j ≠ i} exp(⟨w_i, w_j⟩): the diagonal term replaced by 0. -/
def rowSum (w : Fin 8192 → Fin 128 → EReal) (i : Fin 8192) : EReal :=
  ∑ j : Fin 8192, if i.val = j.val then 0 else expDot (w i) (w j)

/-- The positive pair's similarity. -/
def pos (z : Fin 16384 → Fin 128 → EReal) (i : Fin 8192) : EReal := expDot (realHalf z i) (augHalf z i)

/-- The loss. -/
def loss (z : Fin 16384 → Fin 128 → EReal) : EReal :=
  -(Ideal.div (∑ i : Fin 8192, Ideal.log (Ideal.div (pos z i) (rowSum (realHalf z) i * rowSum (augHalf z) i))) count)

end Cert.NTXent

end
-- ==== Proof.KernelIdeal.PointNorm.lean ====
/-
  The row-wise pieces of one grid point of the kernel, read index by index on the extended reals: normalising a block's rows
  (x[r, d] / max(√(Σ_e x[r, e]²), ε): Spec.lean's `unit`), the zero block the running sums restart from, and the block a point
  stores for the positive pairs. A block x of 1024 rows is read as the matrix (r, d) ↦ x[r, d].
-/
import proofs.«181642_j55198919688654_1_alg».proof.Proof.KernelIdeal.Point
import proofs.«181642_j55198919688654_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- A block of 1024 rows read as a matrix. -/
def rows (x : Vec Ideal S1024x128 .f32) : Fin 1024 → Fin 128 → EReal := fun r d => x (ix2 r d)

/-! ## The three operations that move indices, at explicit coordinates -/

/-- A vector of length a viewed as a column reads, at (i, u), the vector at i: both sit at row-major position i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along the rows reads, at (p, c), the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 128 columns of a block, at row r: Σ_k v[r, k]. -/
private theorem rowSum_apply (v : FVec Ideal S1024x128 .f32) (h : S1024x128.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ k : Fin 128, v (ix2 r k) := by
  refine (Ideal.multiReduction_add_single v _ h hφ hacc (ix1 r)).trans ?_
  refine Finset.sum_congr rfl fun k _ => congrArg v ?_
  funext ax
  refine Fin.ext ?_
  match ax with
  | ⟨0, _⟩ => rfl
  | ⟨1, _⟩ => rfl

/-- The sum along the columns, stored as a column: entry (r, 0) is Σ_k v[r, k]. -/
private theorem rowSumCol_apply (v : FVec Ideal S1024x128 .f32) (h : S1024x128.Reduces [1] S1024) (hφ : FKind.Formats .f32)
    (hacc : (0x00000000#32 : BitVec 32) = FKind.add.neutral .f32 hφ) (hc : S1024.ShapeCasts S1024x1) (r : Fin 1024) :
    shapeCast S1024x1 (multiReduction (F := Ideal) .add [1] S1024 v 0x00000000#32 h hφ hacc) hc (ix2 r (0 : Fin 1))
      = ∑ k : Fin 128, v (ix2 r k) :=
  (shapeCast_a_a1_apply _ hc r 0).trans (rowSum_apply v h hφ hacc r)

/-! ## A block normalised row by row -/

/-- The common body of the three normalised blocks: x[r, d] over the clamped norm of row r. -/
private theorem normalised_apply (x : Vec Ideal S1024x128 .f32) (h1 : S1024x128.ShapeCasts S1024x128)
    (h2 : S1024x128.Reduces [1] S1024) (hφ : FKind.Formats .f32) (hacc : (0x00000000#32 : BitVec 32) = FKind.add.neutral .f32 hφ)
    (h3 : S1024.ShapeCasts S1024x1) (h4 : S1024x1.Broadcasts S1024x128) (r : Fin 1024) (d : Fin 128) :
    divf (shapeCast S1024x128 x h1)
        (broadcastTo S1024x128
          (maximumf
            (sqrt (shapeCast S1024x1
              (multiReduction (F := Ideal) .add [1] S1024 (mulf (shapeCast S1024x128 x h1) (shapeCast S1024x128 x h1)) 0x00000000#32 h2 hφ hacc) h3))
            (broadcast S1024x1 (Scalar.ofBits (F := Ideal) .f32 0x2B8CBCCC#32))) h4) (ix2 r d)
      = Cert.NTXent.unit (rows x) r d := by
  rw [shapeCast_self x h1]
  refine (divf_apply _ _ _).trans ?_
  refine congrArg (Ideal.div (x (ix2 r d))) ?_
  refine (broadcastTo_a1_ab_apply _ h4 r d).trans ?_
  refine (maximumf_apply _ _ _).trans ?_
  refine congrArg (fun t => max t Cert.NTXent.eps) ?_
  show Ideal.sqrt (shapeCast S1024x1 _ h3 (ix2 r (0 : Fin 1))) = _
  refine congrArg Ideal.sqrt ?_
  exact rowSumCol_apply _ h2 hφ hacc h3 r

/-- The three normalised blocks the body forms whole: entry (r, d) is Spec.lean's `unit` of the block's matrix. -/
theorem pay1_apply (x : Vec Ideal S1024x128 .f32) (r : Fin 1024) (d : Fin 128) :
    k0_pay1 (F := Ideal) x (ix2 r d) = Cert.NTXent.unit (rows x) r d := by
  unfold k0_pay1
  exact normalised_apply x _ _ _ _ _ _ r d
theorem pay2_apply (x : Vec Ideal S1024x128 .f32) (r : Fin 1024) (d : Fin 128) :
    k0_pay2 (F := Ideal) x (ix2 r d) = Cert.NTXent.unit (rows x) r d := by
  unfold k0_pay2
  exact normalised_apply x _ _ _ _ _ _ r d
theorem pay6_apply (x : Vec Ideal S1024x128 .f32) (r : Fin 1024) (d : Fin 128) :
    k0_pay6 (F := Ideal) x (ix2 r d) = Cert.NTXent.unit (rows x) r d := by
  unfold k0_pay6
  exact normalised_apply x _ _ _ _ _ _ r d

/-- The fourth block is carried as the block itself and its row norms; the division happens where the second sum is formed. -/
theorem pay7_apply (x : Vec Ideal S1024x128 .f32) (r : Fin 1024) (d : Fin 128) :
    k0_pay7 (F := Ideal) x (ix2 r d) = x (ix2 r d) := by
  unfold k0_pay7
  exact congrFun (shapeCast_self x _) (ix2 r d)
theorem pay8_apply (x : Vec Ideal S1024x128 .f32) (r : Fin 1024) :
    k0_pay8 (F := Ideal) x (ix2 r (0 : Fin 1)) = Ideal.sqrt (∑ e : Fin 128, x (ix2 r e) * x (ix2 r e)) := by
  unfold k0_pay8
  show Ideal.sqrt (shapeCast S1024x1 _ _ (ix2 r (0 : Fin 1))) = _
  refine congrArg Ideal.sqrt ?_
  refine (rowSumCol_apply _ _ _ _ _ r).trans ?_
  refine Finset.sum_congr rfl fun e _ => ?_
  refine (mulf_apply _ _ _).trans ?_
  rw [pay7_apply]

/-- The restart value of both running sums is 0. -/
theorem zeroCol_apply (j : S1024x1.Idx) : zeroCol (F := Ideal) j = 0 := by
  show Ideal.ofBits .f32 0x00000000#32 = 0
  simp [Ideal.ofBits, Ideal.ieee]
theorem zeroCol'_apply (j : S1024x1.Idx) : zeroCol' (F := Ideal) j = 0 := by
  show Ideal.ofBits .f32 0x00000000#32 = 0
  simp [Ideal.ofBits, Ideal.ieee]

/-- Row r of the positive block: exp of the inner product of the two normalised query rows. -/
theorem posBlock_apply (xq yq : Vec Ideal S1024x128 .f32) (r : Fin 1024) :
    posBlock xq yq (ix2 r (0 : Fin 1)) = Cert.NTXent.expDot (Cert.NTXent.unit (rows xq) r) (Cert.NTXent.unit (rows yq) r) := by
  unfold posBlock k0_pay5
  show Ideal.exp (Ideal.div (shapeCast S1024x1 _ _ (ix2 r (0 : Fin 1))) Cert.NTXent.one) = _
  refine congrArg (fun t => Ideal.exp (Ideal.div t Cert.NTXent.one)) ?_
  refine (rowSumCol_apply _ _ _ _ _ r).trans ?_
  refine Finset.sum_congr rfl fun e _ => ?_
  refine (mulf_apply _ _ _).trans ?_
  rw [pay1_apply, pay2_apply]

end Cert.KernelIdeal.Hand

end
-- ==== Proof.KernelIdeal.PointValue.lean ====
/-
  What one grid point of the kernel adds to each running row sum, read index by index on the extended reals, in the terms of
  Spec.lean: over the 1024 key rows q of the point's column block, exp of the inner product of the normalised query row r and
  key row q over the temperature, with 0 where the global row 1024·i + r equals the global column 1024·j + q. The product is a
  1024 × 128 by 128 × 1024 matrix product of the normalised blocks (the second transposed) into a zero accumulator, and the
  mask is a comparison of two 32-bit words that never overflow (both are below 8192).
-/
import proofs.«181642_j55198919688654_1_alg».proof.Proof.KernelIdeal.PointNorm

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The mask: two 32-bit words below 8192 are equal exactly when the numbers are -/

/-- 1024·a + r as a 32-bit word, for a < 8 and r < 1024, does not wrap: two such words are equal iff the numbers are. -/
private theorem word_eq_iff (a b r q : ℕ) (ha : a < 8) (hb : b < 8) (hr : r < 1024) (hq : q < 1024) :
    (BitVec.ofNat 32 a * 1024#32 + BitVec.ofNat 32 r = BitVec.ofNat 32 b * 1024#32 + BitVec.ofNat 32 q)
      ↔ 1024 * a + r = 1024 * b + q := by
  rw [← BitVec.toNat_inj]
  simp only [BitVec.toNat_add, BitVec.toNat_mul, BitVec.toNat_ofNat]
  omega

/-- Entry (r, q) of the mask is the bit of "global row = global column". -/
private theorem mask_apply (i : grid0.Coords) (r q : Fin 1024) :
    k0_pay9 (rowW i) (colW i) (ix2 r q)
      = BitVec.ofBool (decide (1024 * (i 0).val + r.val = 1024 * (i 1).val + q.val)) := by
  have h0 : (i 0).val < 8 := (i 0).isLt
  have h1 : (i 1).val < 8 := (i 1).isLt
  unfold k0_pay9
  show IntOp.cmpi .eq (IntOp.addi (Scalar.muli (rowW i) 1024#32) (iota .tc S1024x1024 32 [0] iota_S1024x1024_d0_w32 (ix2 r q)))
        (IntOp.addi (Scalar.muli (colW i) 1024#32) (iota .tc S1024x1024 32 [1] iota_S1024x1024_d1_w32 (ix2 r q))) = _
  rw [iota_single_apply, iota_single_apply]
  show BitVec.ofBool (BitVec.ofNat 32 (i 0).val * 1024#32 + BitVec.ofNat 32 r.val == BitVec.ofNat 32 (i 1).val * 1024#32 + BitVec.ofNat 32 q.val) = _
  congr 1
  rw [Bool.eq_iff_iff, beq_iff_eq, decide_eq_true_eq]
  exact word_eq_iff _ _ _ _ h0 h1 r.isLt q.isLt

/-- A select on that bit is the conditional. -/
private theorem select_ofBool {α : Type} (p : Prop) [Decidable p] (x y : α) :
    Scalar.select (BitVec.ofBool (decide p)) x y = if p then x else y := by
  by_cases h : p
  · simp [Scalar.select, h]
  · simp [Scalar.select, h]

/-! ## The matrix product at an index -/

/- The operand indices of the product at output (r, q) and contraction coordinate d are (r, d) and (d, q), axis by axis. -/
private theorem lhs_dot_0 (j : S1024x1024.Idx) (k : dot_S1024x128_S128x1024_S1024x1024_1_0_0_1_n_n.contr.Idx) :
    (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
private theorem lhs_dot_1 (j : S1024x1024.Idx) (k : dot_S1024x128_S128x1024_S1024x1024_1_0_0_1_n_n.contr.Idx) :
    (dot_S1024x128_S128x1024_S1024x1024_1_0_0_1_n_n.lhsIdx j k 1).val = (k ⟨0, by decide⟩).val :=
  dot_S1024x128_S128x1024_S1024x1024_1_0_0_1_n_n.lhsIdx_val_of_single rfl j k
private theorem rhs_dot_0 (j : S1024x1024.Idx) (k : dot_S1024x128_S128x1024_S1024x1024_1_0_0_1_n_n.contr.Idx) :
    (dot_S1024x128_S128x1024_S1024x1024_1_0_0_1_n_n.rhsIdx j k 0).val = (k ⟨0, by decide⟩).val :=
  dot_S1024x128_S128x1024_S1024x1024_1_0_0_1_n_n.rhsIdx_val_of_single rfl j k
private theorem rhs_dot_1 (j : S1024x1024.Idx) (k : dot_S1024x128_S128x1024_S1024x1024_1_0_0_1_n_n.contr.Idx) :
    (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- Entry (r, q) of the product of a 1024 × 128 block and a 128 × 1024 block into the zero block: Σ_d A[r, d] · B[d, q]. -/
private theorem dot_apply (A : FVec Ideal S1024x128 .bf16) (B : FVec Ideal S128x1024 .bf16) (r q : Fin 1024) :
    matmul dot_S1024x128_S128x1024_S1024x1024_1_0_0_1_n_n none A B (constant (F := Ideal) S1024x1024 .f32 0x00000000#32) (ix2 r q)
      = ∑ d : Fin 128, A (ix2 r d) * B (ix2 d q) := by
  simp only [matmul]
  rw [Ideal.matmul_constant_zero_apply, ← Equiv.sum_comp (contrEquiv1 dot_S1024x128_S128x1024_S1024x1024_1_0_0_1_n_n 128 rfl rfl).symm]
  refine Finset.sum_congr rfl fun d _ => ?_
  have hd := contrEquiv1_symm_val dot_S1024x128_S128x1024_S1024x1024_1_0_0_1_n_n 128 rfl rfl d
  have el : dot_S1024x128_S128x1024_S1024x1024_1_0_0_1_n_n.lhsIdx (ix2 r q) ((contrEquiv1 dot_S1024x128_S128x1024_S1024x1024_1_0_0_1_n_n 128 rfl rfl).symm d) = ix2 r d := funext fun a => Fin.ext (by
    match a with
    | ⟨0, _⟩ => exact lhs_dot_0 _ _
    | ⟨1, _⟩ => exact (lhs_dot_1 _ _).trans hd)
  have er : dot_S1024x128_S128x1024_S1024x1024_1_0_0_1_n_n.rhsIdx (ix2 r q) ((contrEquiv1 dot_S1024x128_S128x1024_S1024x1024_1_0_0_1_n_n 128 rfl rfl).symm d) = ix2 d q := funext fun a => Fin.ext (by
    match a with
    | ⟨0, _⟩ => exact (rhs_dot_0 _ _).trans hd
    | ⟨1, _⟩ => exact rhs_dot_1 _ _)
  rw [el, er]

/-- The transposed block at (d, q) is the block at (q, d). -/
private theorem transpose_block_apply (B : FVec Ideal S1024x128 .bf16) (d : Fin 128) (q : Fin 1024) :
    transpose S128x1024 [1, 0] B transposes_S1024x128_p1_0_S128x1024 (ix2 d q) = B (ix2 q d) :=
  transpose_apply [1, 0] B transposes_S1024x128_p1_0_S128x1024 (ix2 d q) (ix2 q d) (fun b => match b with
    | ⟨0, _⟩ => rfl
    | ⟨1, _⟩ => rfl)

/-! ## One running sum after a point -/

/-- The second running sum is formed as the first, from the key block divided entry by entry by its clamped row norms. -/
private theorem pay11_eq_pay10 {F : FTy → Type} [FloatOps F] (a0 a1 : BitVec 32) (v19 v34 : FVec F S1024x128 .f32)
    (v38 : FVec F S1024x1 .f32) (c : F .f32) (v76 : Vec F S1024x1 .f32) :
    k0_pay11 a0 a1 v19 v34 v38 c v76
      = k0_pay10 a0 a1 v19
          (divf v34 (broadcastTo S1024x128 (maximumf v38 (broadcast S1024x1 c)) broadcasts_S1024x1_S1024x128)) v76 := rfl

/-- Row r of a running sum after a point, for any two blocks L (queries) and R (keys): what it held plus, over the key rows q,
    exp(⟨L_r, R_q⟩ / 1), with 0 where the global row equals the global column. -/
private theorem pay10_apply (i : grid0.Coords) (L R : FVec Ideal S1024x128 .f32) (a : Vec Ideal S1024x1 .f32) (r : Fin 1024) :
    k0_pay10 (rowW i) (colW i) L R a (ix2 r (0 : Fin 1))
      = a (ix2 r (0 : Fin 1)) + ∑ q : Fin 1024,
          (if 1024 * (i 0).val + r.val = 1024 * (i 1).val + q.val then (0 : EReal)
           else Cert.NTXent.expDot (fun d => L (ix2 r d)) (fun d => R (ix2 q d))) := by
  unfold k0_pay10
  rw [addf_apply, shapeCast_self]
  refine congrArg (a (ix2 r (0 : Fin 1)) + ·) ?_
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single _ 0x00000000#32 reduces_S1024x1024_S1024 (.inl rfl) rfl (ix1 r)).trans ?_
  show ∑ q : Fin 1024, _ = _
  refine Finset.sum_congr rfl fun q _ => ?_
  have hl : reduces_S1024x1024_S1024.lift (ix1 r) q = ix2 r q := funext fun c => Fin.ext (by
    match c with
    | ⟨0, _⟩ => rfl
    | ⟨1, _⟩ => rfl)
  rw [hl, select_apply, mask_apply, select_ofBool]
  refine if_congr Iff.rfl Ideal.ofBits_zero_f32 ?_
  show Ideal.exp (Ideal.div (matmul dot_S1024x128_S128x1024_S1024x1024_1_0_0_1_n_n none (truncf .bf16 L bitsLt_bf16_f32)
      (transpose S128x1024 [1, 0] (truncf .bf16 R bitsLt_bf16_f32) transposes_S1024x128_p1_0_S128x1024)
      (constant (F := Ideal) S1024x1024 .f32 0x00000000#32) (ix2 r q)) (Ideal.ofBits .f32 0x3F800000#32)) = _
  rw [dot_apply]
  unfold Cert.NTXent.expDot Cert.NTXent.one
  refine congrArg (fun s => Ideal.exp (Ideal.div s (Ideal.ofBits .f32 0x3F800000#32))) (Finset.sum_congr rfl fun d _ => ?_)
  rw [transpose_block_apply]
  rfl

/-- Row r of the first running sum after a point: what it held plus the masked row sum of the point's block of similarities. -/
theorem addReal_apply (i : grid0.Coords) (xq xk : Vec Ideal S1024x128 .f32) (a : Vec Ideal S1024x1 .f32) (r : Fin 1024) :
    addReal i xq xk a (ix2 r (0 : Fin 1))
      = a (ix2 r (0 : Fin 1)) + ∑ q : Fin 1024,
          (if 1024 * (i 0).val + r.val = 1024 * (i 1).val + q.val then (0 : EReal)
           else Cert.NTXent.expDot (Cert.NTXent.unit (rows xq) r) (Cert.NTXent.unit (rows xk) q)) := by
  unfold addReal
  rw [pay10_apply]
  refine congrArg (a (ix2 r (0 : Fin 1)) + ·) (Finset.sum_congr rfl fun q _ => ?_)
  have hq : (fun d : Fin 128 => k0_pay1 (F := Ideal) xq (ix2 r d)) = Cert.NTXent.unit (rows xq) r := funext fun d => pay1_apply xq r d
  have hk : (fun d : Fin 128 => k0_pay6 (F := Ideal) xk (ix2 q d)) = Cert.NTXent.unit (rows xk) q := funext fun d => pay6_apply xk q d
  rw [hq, hk]

/-- The key block of the second sum, divided entry by entry by its clamped row norms, is the normalised block. -/
private theorem augKey_apply (yk : Vec Ideal S1024x128 .f32) (q : Fin 1024) (d : Fin 128) :
    divf (k0_pay7 (F := Ideal) yk)
        (broadcastTo S1024x128 (maximumf (k0_pay8 (F := Ideal) yk) (broadcast S1024x1 (Scalar.ofBits .f32 0x2B8CBCCC#32)))
          broadcasts_S1024x1_S1024x128) (ix2 q d)
      = Cert.NTXent.unit (rows yk) q d := by
  rw [divf_apply, pay7_apply]
  rw [broadcastTo_apply _ broadcasts_S1024x1_S1024x128 (ix2 q d) (ix2 q (0 : Fin 1)) (fun a => match a with
    | ⟨0, _⟩ => rfl
    | ⟨1, _⟩ => rfl)]
  rw [maximumf_apply, pay8_apply]
  rfl

/-- The same for the second running sum, of the augmented blocks. -/
theorem addAug_apply (i : grid0.Coords) (yq yk : Vec Ideal S1024x128 .f32) (a : Vec Ideal S1024x1 .f32) (r : Fin 1024) :
    addAug i yq yk a (ix2 r (0 : Fin 1))
      = a (ix2 r (0 : Fin 1)) + ∑ q : Fin 1024,
          (if 1024 * (i 0).val + r.val = 1024 * (i 1).val + q.val then (0 : EReal)
           else Cert.NTXent.expDot (Cert.NTXent.unit (rows yq) r) (Cert.NTXent.unit (rows yk) q)) := by
  unfold addAug
  rw [pay11_eq_pay10, pay10_apply]
  refine congrArg (a (ix2 r (0 : Fin 1)) + ·) (Finset.sum_congr rfl fun q _ => ?_)
  have hq : (fun d : Fin 128 => k0_pay2 (F := Ideal) yq (ix2 r d)) = Cert.NTXent.unit (rows yq) r := funext fun d => pay2_apply yq r d
  have hk : (fun d : Fin 128 => divf (k0_pay7 (F := Ideal) yk)
        (broadcastTo S1024x128 (maximumf (k0_pay8 (F := Ideal) yk) (broadcast S1024x1 (Scalar.ofBits .f32 0x2B8CBCCC#32)))
          broadcasts_S1024x1_S1024x128) (ix2 q d)) = Cert.NTXent.unit (rows yk) q := funext fun d => augKey_apply yk q d
  rw [hq, hk]

end Cert.KernelIdeal.Hand

end
-- ==== Proof.KernelIdeal.GridSum.lean ====
/-
  The three result columns of the kernel are the row sums and the positive pairs of Spec.lean. Row block i of the first column
  is the running sum after the eight points of row i of the grid: 0, then for each column block j the masked sum over its 1024
  key rows; the eight blocks of 1024 keys are the 8192 keys, so the running sum at the end of the row is the sum over all of
  them — a regrouping of a finite sum, valid on the extended reals since only commutativity and associativity of + are used.
-/
import proofs.«181642_j55198919688654_1_alg».proof.Proof.KernelIdeal.GridBlocks
import proofs.«181642_j55198919688654_1_alg».proof.Proof.KernelIdeal.PointValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

namespace GridSum

/-! ## Sums over eight blocks of 1024 -/

/-- The eight blocks of 1024 consecutive indices are the 8192 indices: k = 1024·j + q with j < 8, q < 1024, once each. Only
    commutativity and associativity of + are used. -/
theorem sum_eight_blocks {M : Type*} [AddCommMonoid M] (f : Fin 8192 → M) :
    ∑ j : Fin 8, ∑ q : Fin 1024, f ⟨1024 * j.val + q.val, by omega⟩ = ∑ k : Fin 8192, f k := by
  rw [← Fintype.sum_prod_type' (fun (j : Fin 8) (q : Fin 1024) => f ⟨1024 * j.val + q.val, by omega⟩)]
  refine Fintype.sum_equiv (finProdFinEquiv : Fin 8 × Fin 1024 ≃ Fin 8192) _ _ (fun p => ?_)
  refine congrArg f (Fin.ext ?_)
  show 1024 * p.1.val + p.2.val = p.2.val + 1024 * p.1.val
  exact Nat.add_comm _ _

/-- Every index below 8192 is 1024·ib + r with ib < 8 and r < 1024. -/
theorem split_index (i : Fin 8192) :
    ∃ (ib : Fin 8) (r : Fin 1024), i = ⟨1024 * ib.val + r.val, by omega⟩ :=
  ⟨⟨i.val / 1024, by omega⟩, ⟨i.val % 1024, by omega⟩, Fin.ext (by show i.val = 1024 * (i.val / 1024) + i.val % 1024; omega)⟩

/-- The term of key 1024·j + q in the row sum of row 1024·ib + r of a half w: 0 on the diagonal, else exp of the inner product. -/
def blockTerm (w : Fin 8192 → Fin 128 → EReal) (ib : Fin 8) (r : Fin 1024) (j : Fin 8) (q : Fin 1024) : EReal :=
  if 1024 * ib.val + r.val = 1024 * j.val + q.val then 0
  else Cert.NTXent.expDot (w ⟨1024 * ib.val + r.val, by omega⟩) (w ⟨1024 * j.val + q.val, by omega⟩)

/-- A value that starts at the first block's sum and gains each further block's sum ends, after the eighth, at the row sum
    over all 8192 keys. -/
theorem row_total (w : Fin 8192 → Fin 128 → EReal) (ib : Fin 8) (r : Fin 1024) (S : Fin 8 → EReal)
    (h0 : S ⟨0, by norm_num⟩ = ∑ q : Fin 1024, blockTerm w ib r ⟨0, by norm_num⟩ q)
    (hs : ∀ (j : ℕ) (h : j + 1 < 8), S ⟨j + 1, h⟩ = S ⟨j, by omega⟩ + ∑ q : Fin 1024, blockTerm w ib r ⟨j + 1, h⟩ q) :
    S ⟨7, by norm_num⟩ = Cert.NTXent.rowSum w ⟨1024 * ib.val + r.val, by omega⟩ := by
  have h0' : S 0 = ∑ q : Fin 1024, blockTerm w ib r 0 q := h0
  have h1 : S 1 = S 0 + ∑ q : Fin 1024, blockTerm w ib r 1 q := hs 0 (by norm_num)
  have h2 : S 2 = S 1 + ∑ q : Fin 1024, blockTerm w ib r 2 q := hs 1 (by norm_num)
  have h3 : S 3 = S 2 + ∑ q : Fin 1024, blockTerm w ib r 3 q := hs 2 (by norm_num)
  have h4 : S 4 = S 3 + ∑ q : Fin 1024, blockTerm w ib r 4 q := hs 3 (by norm_num)
  have h5 : S 5 = S 4 + ∑ q : Fin 1024, blockTerm w ib r 5 q := hs 4 (by norm_num)
  have h6 : S 6 = S 5 + ∑ q : Fin 1024, blockTerm w ib r 6 q := hs 5 (by norm_num)
  have h7 : S 7 = S 6 + ∑ q : Fin 1024, blockTerm w ib r 7 q := hs 6 (by norm_num)
  calc S ⟨7, by norm_num⟩ = S 7 := rfl
    _ = ∑ j : Fin 8, ∑ q : Fin 1024, blockTerm w ib r j q := by
        rw [Fin.sum_univ_eight, h7, h6, h5, h4, h3, h2, h1, h0']
    _ = Cert.NTXent.rowSum w ⟨1024 * ib.val + r.val, by omega⟩ :=
        sum_eight_blocks (fun k : Fin 8192 =>
          if 1024 * ib.val + r.val = k.val then (0 : EReal)
          else Cert.NTXent.expDot (w ⟨1024 * ib.val + r.val, by omega⟩) (w k))

/-! ## The normalised rows of the four blocks at a point, as rows of the two halves -/

/-- Query row r of the real block at a point of grid row ib is row 1024·ib + r of the real half. -/
theorem unit_qReal (c : Dev nD) (t : Fin cfg0.N) (ib : Fin 8) (ht : t.val / 8 = ib.val) (r : Fin 1024) :
    Cert.NTXent.unit (rows (qReal m c t)) r = Cert.NTXent.realHalf (argMat m c) ⟨1024 * ib.val + r.val, by omega⟩ := by
  funext d
  simp only [Cert.NTXent.unit, Cert.NTXent.realHalf, rows, qReal_apply, ht]

/-- Key row q of the real block at a point of grid column j is row 1024·j + q of the real half. -/
theorem unit_kReal (c : Dev nD) (t : Fin cfg0.N) (j : Fin 8) (ht : t.val % 8 = j.val) (q : Fin 1024) :
    Cert.NTXent.unit (rows (kReal m c t)) q = Cert.NTXent.realHalf (argMat m c) ⟨1024 * j.val + q.val, by omega⟩ := by
  funext d
  simp only [Cert.NTXent.unit, Cert.NTXent.realHalf, rows, kReal_apply, ht]

/-- The same two for the augmented blocks and the augmented half. -/
theorem unit_qAug (c : Dev nD) (t : Fin cfg0.N) (ib : Fin 8) (ht : t.val / 8 = ib.val) (r : Fin 1024) :
    Cert.NTXent.unit (rows (qAug m c t)) r = Cert.NTXent.augHalf (argMat m c) ⟨1024 * ib.val + r.val, by omega⟩ := by
  funext d
  simp only [Cert.NTXent.unit, Cert.NTXent.augHalf, rows, qAug_apply, ht]

theorem unit_kAug (c : Dev nD) (t : Fin cfg0.N) (j : Fin 8) (ht : t.val % 8 = j.val) (q : Fin 1024) :
    Cert.NTXent.unit (rows (kAug m c t)) q = Cert.NTXent.augHalf (argMat m c) ⟨1024 * j.val + q.val, by omega⟩ := by
  funext d
  simp only [Cert.NTXent.unit, Cert.NTXent.augHalf, rows, kAug_apply, ht]

/-! ## What the point (ib, j) adds to row r of each running sum -/

theorem addReal_point (c : Dev nD) (t : Fin cfg0.N) (ib j : Fin 8) (ht : t.val = 8 * ib.val + j.val) (r : Fin 1024)
    (a : Vec Ideal S1024x1 .f32) :
    addReal (grid0.coords t) (qReal m c t) (kReal m c t) a (ix2 r (0 : Fin 1))
      = a (ix2 r (0 : Fin 1)) + ∑ q : Fin 1024, blockTerm (Cert.NTXent.realHalf (argMat m c)) ib r j q := by
  have e1 : t.val / 8 = ib.val := by omega
  have e2 : t.val % 8 = j.val := by omega
  rw [addReal_apply, coords_row, coords_col, unit_qReal m c t ib e1]
  simp only [unit_kReal m c t j e2, e1, e2, blockTerm]

theorem addAug_point (c : Dev nD) (t : Fin cfg0.N) (ib j : Fin 8) (ht : t.val = 8 * ib.val + j.val) (r : Fin 1024)
    (a : Vec Ideal S1024x1 .f32) :
    addAug (grid0.coords t) (qAug m c t) (kAug m c t) a (ix2 r (0 : Fin 1))
      = a (ix2 r (0 : Fin 1)) + ∑ q : Fin 1024, blockTerm (Cert.NTXent.augHalf (argMat m c)) ib r j q := by
  have e1 : t.val / 8 = ib.val := by omega
  have e2 : t.val % 8 = j.val := by omega
  rw [addAug_apply, coords_row, coords_col, unit_qAug m c t ib e1]
  simp only [unit_kAug m c t j e2, e1, e2, blockTerm]

/-! ## The running sums at the end of a grid row -/

/-- After the eight points of grid row ib, row r of the first running sum is the row sum of row 1024·ib + r of the real half. -/
theorem sumReal_row (c : Dev nD) (ib : Fin 8) (r : Fin 1024) (h7 : 8 * ib.val + 7 < cfg0.N) :
    sumReal m c (8 * ib.val + 7) h7 (ix2 r (0 : Fin 1))
      = Cert.NTXent.rowSum (Cert.NTXent.realHalf (argMat m c)) ⟨1024 * ib.val + r.val, by omega⟩ := by
  have hN := N64
  refine row_total (Cert.NTXent.realHalf (argMat m c)) ib r
    (fun j => sumReal m c (8 * ib.val + j.val) (by omega) (ix2 r (0 : Fin 1))) ?_ ?_
  · show sumReal m c (8 * ib.val + 0) _ (ix2 r (0 : Fin 1)) = _
    rw [sumReal_head m c ⟨8 * ib.val + 0, by omega⟩ (by show (8 * ib.val + 0) % 8 = 0; omega),
      addReal_point m c ⟨8 * ib.val + 0, by omega⟩ ib ⟨0, by norm_num⟩ rfl r, zeroCol_apply, zero_add]
  · intro j h
    show sumReal m c (8 * ib.val + (j + 1)) _ (ix2 r (0 : Fin 1))
      = sumReal m c (8 * ib.val + j) _ (ix2 r (0 : Fin 1)) + _
    rw [sumReal_step m c ⟨8 * ib.val + (j + 1), by omega⟩ (by show ¬ (8 * ib.val + (j + 1)) % 8 = 0; omega),
      addReal_point m c ⟨8 * ib.val + (j + 1), by omega⟩ ib ⟨j + 1, h⟩ rfl r]
    rfl

/-- The same for the second running sum and the augmented half. -/
theorem sumAug_row (c : Dev nD) (ib : Fin 8) (r : Fin 1024) (h7 : 8 * ib.val + 7 < cfg0.N) :
    sumAug m c (8 * ib.val + 7) h7 (ix2 r (0 : Fin 1))
      = Cert.NTXent.rowSum (Cert.NTXent.augHalf (argMat m c)) ⟨1024 * ib.val + r.val, by omega⟩ := by
  have hN := N64
  refine row_total (Cert.NTXent.augHalf (argMat m c)) ib r
    (fun j => sumAug m c (8 * ib.val + j.val) (by omega) (ix2 r (0 : Fin 1))) ?_ ?_
  · show sumAug m c (8 * ib.val + 0) _ (ix2 r (0 : Fin 1)) = _
    rw [sumAug_head m c ⟨8 * ib.val + 0, by omega⟩ (by show (8 * ib.val + 0) % 8 = 0; omega),
      addAug_point m c ⟨8 * ib.val + 0, by omega⟩ ib ⟨0, by norm_num⟩ rfl r, zeroCol'_apply, zero_add]
  · intro j h
    show sumAug m c (8 * ib.val + (j + 1)) _ (ix2 r (0 : Fin 1))
      = sumAug m c (8 * ib.val + j) _ (ix2 r (0 : Fin 1)) + _
    rw [sumAug_step m c ⟨8 * ib.val + (j + 1), by omega⟩ (by show ¬ (8 * ib.val + (j + 1)) % 8 = 0; omega),
      addAug_point m c ⟨8 * ib.val + (j + 1), by omega⟩ ib ⟨j + 1, h⟩ rfl r]
    rfl

/-- The positive block is stored at the first point of a grid row and kept to its end. -/
theorem posAt_row (c : Dev nD) (ib : Fin 8) (j : ℕ) (hj : j < 8) (h : 8 * ib.val + j < cfg0.N) :
    posAt m c (8 * ib.val + j) h
      = posBlock (qReal m c ⟨8 * ib.val, by omega⟩) (qAug m c ⟨8 * ib.val, by omega⟩) := by
  induction j with
  | zero => exact posAt_head m c ⟨8 * ib.val, by omega⟩ (by show (8 * ib.val) % 8 = 0; omega)
  | succ j ih =>
    rw [posAt_step m c ⟨8 * ib.val + (j + 1), h⟩ (by show ¬ (8 * ib.val + (j + 1)) % 8 = 0; omega)]
    exact ih (by omega) (by omega)

end GridSum

open GridSum

/-- Entry i of the first result column: Σ_{j ≠ i} exp⟨u_i, u_j⟩ over the real half. -/
theorem colReal_eq (c : Dev nD) (i : Fin 8192) :
    ((dats m 0 c).arrAt 4 cfg0.N : Vec Ideal S8192x1 .f32) (ix2 i (0 : Fin 1))
      = Cert.NTXent.rowSum (Cert.NTXent.realHalf (argMat m c)) i := by
  obtain ⟨ib, r, rfl⟩ := split_index i
  rw [arrAt4_apply, sumReal_row]

/-- Entry i of the second result column: the same over the augmented half. -/
theorem colAug_eq (c : Dev nD) (i : Fin 8192) :
    ((dats m 0 c).arrAt 5 cfg0.N : Vec Ideal S8192x1 .f32) (ix2 i (0 : Fin 1))
      = Cert.NTXent.rowSum (Cert.NTXent.augHalf (argMat m c)) i := by
  obtain ⟨ib, r, rfl⟩ := split_index i
  rw [arrAt5_apply, sumAug_row]

/-- Entry i of the third result column: the positive pair exp⟨u_i, v_i⟩. -/
theorem colPos_eq (c : Dev nD) (i : Fin 8192) :
    ((dats m 0 c).arrAt 6 cfg0.N : Vec Ideal S8192x1 .f32) (ix2 i (0 : Fin 1))
      = Cert.NTXent.pos (argMat m c) i := by
  obtain ⟨ib, r, rfl⟩ := split_index i
  have hN := N64
  rw [arrAt6_apply, posAt_row m c ib 7 (by norm_num), posBlock_apply,
    unit_qReal m c ⟨8 * ib.val, by omega⟩ ib (by show 8 * ib.val / 8 = ib.val; omega),
    unit_qAug m c ⟨8 * ib.val, by omega⟩ ib (by show 8 * ib.val / 8 = ib.val; omega)]
  rfl

end Cert.KernelIdeal.Hand

end
-- ==== Proof.KernelIdeal.KernelValue.lean ====
/-
  The idealised kernel program's results: the host operations after the region reshape the three columns to vectors and form
  −(Σ_i log(P(i) / (S_u(i) · S_v(i)))) / 8192, which with the columns of GridSum.lean is the loss of Spec.lean; the second
  result is the constant 0.
-/
import proofs.«181642_j55198919688654_1_alg».proof.Proof.KernelIdeal.Whole
import proofs.«181642_j55198919688654_1_alg».proof.Proof.KernelIdeal.GridSum
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.ShloMosaic.StableHlo
variable (m : (ℓ : Loc nD τ sig) → Buf (Elt Ideal) ℓ)

/-- At the region's exit the three result arrays hold the three columns. -/
theorem exit_real (c : Dev nD) : exitW m c (Proc.devRef .tc main_v2_0) = colReal m c := by
  unfold exitW
  rw [Function.update_of_ne (devRef_ne_of_ne (by decide)), Function.update_of_ne (devRef_ne_of_ne (by decide)),
    Function.update_self]
theorem exit_aug (c : Dev nD) : exitW m c (Proc.devRef .tc main_v2_1) = colAug m c := by
  unfold exitW
  rw [Function.update_of_ne (devRef_ne_of_ne (by decide)), Function.update_self]
theorem exit_pos (c : Dev nD) : exitW m c (Proc.devRef .tc main_v2_2) = colPos m c := by
  unfold exitW
  rw [Function.update_self]

/-- A column of 8192 entries recast as a vector reads entry i where the column has row i. -/
theorem col_as_vec (x : Vec Ideal S8192x1 .f32) (h : S8192x1.ShapeCasts S8192) (i : Fin 8192) :
    shapeCast S8192 x h (ix1 i) = x (ix2 i (0 : Fin 1)) :=
  shapeCast_apply x h (ix1 i) (ix2 i (0 : Fin 1)) (by
    rw [Shape.rowMajor_val_two, Shape.rowMajor_val_one]
    show i.val * 1 + 0 = i.val
    omega)

/-- A host sum of a vector of 8192 entries from the initial value 0 is the sum of its entries. -/
theorem sum_vec (y : Vec Ideal S8192 .f32) (j : S_.Idx) :
    Host.reduceAdd y (constant (F := Ideal) S_ .f32 0x00000000#32) reducesTo_S8192_S_d0 h_S_ j = ∑ i : Fin 8192, y (ix1 i) := by
  simp only [Host.reduceAdd, Ideal.hostReduceAdd_def]
  rw [Ideal.hostReduceAdd_total reducesTo_S8192_S_d0 (fun b => b.elim0) y _ j, ← Equiv.sum_comp (idxEquiv1 (n := 8192)).symm]
  show Ideal.ofBits .f32 0x00000000#32 + _ = _
  rw [Ideal.ofBits_zero_f32, zero_add]
  exact Finset.sum_congr rfl fun i _ => rfl

/-- The host tail on three vectors, read at its one index. -/
theorem tail_apply (p r a : Vec Ideal S8192 .f32) (j : S_.Idx) :
    Host.negf (Host.divf (Host.reduceAdd (Host.log (Host.divf p (mulf r a))) (constant (F := Ideal) S_ .f32 0x00000000#32) reducesTo_S8192_S_d0 h_S_)
        (constant (F := Ideal) S_ .f32 0x46000000#32)) j
      = -(Ideal.div (∑ i : Fin 8192, Ideal.log (Ideal.div (p (ix1 i)) (r (ix1 i) * a (ix1 i)))) (Ideal.ofBits .f32 0x46000000#32)) := by
  show -(Ideal.div (Host.reduceAdd (Host.log (Host.divf p (mulf r a))) (constant (F := Ideal) S_ .f32 0x00000000#32) reducesTo_S8192_S_d0 h_S_ j) _) = _
  rw [sum_vec]
  exact congrArg (fun s => -(Ideal.div s _)) (Finset.sum_congr rfl fun i _ => rfl)

/-- The three columns, entry by entry (GridSum.lean). -/
theorem colReal_apply (c : Dev nD) (i : Fin 8192) : colReal m c (ix2 i (0 : Fin 1)) = Cert.NTXent.rowSum (Cert.NTXent.realHalf (argMat m c)) i :=
  colReal_eq m c i
theorem colAug_apply (c : Dev nD) (i : Fin 8192) : colAug m c (ix2 i (0 : Fin 1)) = Cert.NTXent.rowSum (Cert.NTXent.augHalf (argMat m c)) i :=
  colAug_eq m c i
theorem colPos_apply (c : Dev nD) (i : Fin 8192) : colPos m c (ix2 i (0 : Fin 1)) = Cert.NTXent.pos (argMat m c) i :=
  colPos_eq m c i

/-- The tail of the program on three vectors that are, entry by entry, the positive pairs and the two row sums of a matrix z:
    the loss of z. -/
theorem tail_loss (p r a : Vec Ideal S8192 .f32) (z : Fin 16384 → Fin 128 → EReal)
    (hp : ∀ i : Fin 8192, p (ix1 i) = Cert.NTXent.pos z i)
    (hr : ∀ i : Fin 8192, r (ix1 i) = Cert.NTXent.rowSum (Cert.NTXent.realHalf z) i)
    (ha : ∀ i : Fin 8192, a (ix1 i) = Cert.NTXent.rowSum (Cert.NTXent.augHalf z) i) (j : S_.Idx) :
    Host.negf (Host.divf (Host.reduceAdd (Host.log (Host.divf p (mulf r a))) (constant (F := Ideal) S_ .f32 0x00000000#32) reducesTo_S8192_S_d0 h_S_)
        (constant (F := Ideal) S_ .f32 0x46000000#32)) j
      = Cert.NTXent.loss z := by
  rw [tail_apply]
  unfold Cert.NTXent.loss Cert.NTXent.count
  simp only [hp, hr, ha]

/-- The float result is the loss of the argument matrix. -/
theorem result_eq (c : Dev nD) :
    endW m c (Proc.devRef .tc main_v11) = fun _ => Cert.NTXent.loss (argMat m c) := by
  unfold endW
  show StableHlo.after hostOps1 _ (Proc.devRef .tc main_v11) = _
  after_results
  rw [exit_real, exit_aug, exit_pos]
  funext j
  show _ = Cert.NTXent.loss (argMat m c)
  exact tail_loss _ _ _ (argMat m c)
    (fun i => (col_as_vec (colPos m c) _ i).trans (colPos_apply m c i))
    (fun i => (col_as_vec (colReal m c) _ i).trans (colReal_apply m c i))
    (fun i => (col_as_vec (colAug m c) _ i).trans (colAug_apply m c i)) j

/-- The integer result is the constant 0. -/
theorem count_eq (c : Dev nD) :
    endW m c (Proc.devRef .tc main_c) = constantI S_ 32 0#32 := by
  unfold endW
  show StableHlo.after hostOps1 _ (Proc.devRef .tc main_c) = _
  after_results

end Cert.KernelIdeal.Hand

end
-- ==== Proof.RefValue.lean ====
/-
  The reference program's result, read index by index on the extended reals, is the loss of Spec.lean of the argument matrix:
  it normalises every row of z, splits the halves, forms both 8192 × 8192 matrices of exp(⟨w_i, w_j⟩ / 1) with the diagonal
  replaced by 0, sums their rows, and takes −(Σ_i log(P(i) / (S_u(i) · S_v(i)))) / 8192.
-/
import proofs.«181642_j55198919688654_1_alg».proof.Proof.Gen.ReferenceIdeal.Run
import proofs.«181642_j55198919688654_1_alg».proof.Proof.Gen.ReferenceIdeal.Read
import proofs.«181642_j55198919688654_1_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem

/-- The argument of the reference read as a matrix of extended reals. -/
abbrev mat (z : (⟨S16384x128, .f32⟩ : BufTy).Contents (Elt Ideal)) : Fin 16384 → Fin 128 → EReal :=
  fun r d => z (ix2 r d)

/-- The equality test of two words answers the bit 1 exactly when the words are equal. -/
theorem cmpi_eq_one_iff {w : Nat} (a b : BitVec w) : IntOp.cmpi .eq a b = 1#1 ↔ a = b := by
  have hb : ∀ c : Bool, BitVec.ofBool c = 1#1 ↔ c = true := fun c => by cases c <;> decide
  simp only [IntOp.cmpi, hb, beq_iff_eq]

/-- Two numbers below 8192 (so below 2³²) with the same 32-bit word are equal. -/
theorem ofNat32_inj {a b : ℕ} (ha : a < 8192) (hb : b < 8192) (h : BitVec.ofNat 32 a = BitVec.ofNat 32 b) : a = b := by
  have h' := congrArg BitVec.toNat h
  simp only [BitVec.toNat_ofNat] at h'
  omega

section Stages
open Cert.ReferenceIdeal.Read Cert.NTXent

variable (z : (⟨S16384x128, .f32⟩ : BufTy).Contents (Elt Ideal))

/-- Stage 1: entry (r, d) of the row-normalised matrix is z(r, d) over max(√(Σ_k z(r, k)²), ε). -/
theorem unit_at (r : Fin 16384) (d : Fin 128) :
    val_main_v4 (F := Ideal) z (ix2 r d) = unit (mat z) r d := by
  have hidx : ∀ k : Fin 128, idx_main_call0_v1 (idx_main_call0_v2 (idx_main_v3 (ix2 r d))) k = ix2 r k := fun k =>
    funext fun a => Fin.ext (by match a with | ⟨0, _⟩ => rfl | ⟨1, _⟩ => rfl)
  simp only [val_main_v4_apply, val_main_v3_apply, val_main_v2_apply, val_main_v0_apply, val_main_call0_v2_apply,
    val_main_call0_v1_apply, val_main_call0_cst_apply, val_main_call0_v0_apply, val_main_v1_apply, val_main_cst_apply,
    hidx, Ideal.hostDivf_def, Ideal.maximumf_def, Ideal.hostUnary_sqrt_def, Ideal.mulf_def, Ideal.ofBits_def,
    Ideal.ofBits_zero_f32, zero_add]
  rfl

/-- Stage 2: the first 8192 normalised rows are the real half, the last 8192 the augmented half. -/
theorem real_at (i : Fin 8192) (d : Fin 128) :
    val_main_v5 (F := Ideal) z (ix2 i d) = realHalf (mat z) i d := by
  have hidx : idx_main_v5 (ix2 i d) = ix2 (⟨i.val, by omega⟩ : Fin 16384) d :=
    funext fun a => Fin.ext (by match a with | ⟨0, _⟩ => rfl | ⟨1, _⟩ => rfl)
  rw [val_main_v5_apply, hidx, unit_at]
  rfl

theorem aug_at (i : Fin 8192) (d : Fin 128) :
    val_main_v6 (F := Ideal) z (ix2 i d) = augHalf (mat z) i d := by
  have hidx : idx_main_v6 (ix2 i d) = ix2 (⟨8192 + i.val, by omega⟩ : Fin 16384) d :=
    funext fun a => Fin.ext (by match a with | ⟨0, _⟩ => rfl | ⟨1, _⟩ => rfl)
  rw [val_main_v6_apply, hidx, unit_at]
  rfl

/-- Stage 3: the mask's bit at (i, j) is set exactly on the diagonal: the two iotas are 32-bit words of numbers below
    8192, and adding the word 0 changes nothing. -/
theorem mask_at (i j : Fin 8192) :
    val_main_v11 (F := Ideal) (ix2 i j) = 1#1 ↔ i.val = j.val := by
  rw [val_main_v11_apply, val_main_v10_apply, val_main_v7_apply, val_main_v8_apply, val_main_v9_apply, val_main_c_apply,
    cmpi_eq_one_iff]
  show BitVec.ofNat 32 i.val + 0#32 = BitVec.ofNat 32 j.val ↔ i.val = j.val
  rw [BitVec.add_zero]
  exact ⟨ofNat32_inj i.isLt j.isLt, fun h => by rw [h]⟩

/-- Stage 4a: off the mask, entry (i, j) of each half's matrix is exp(⟨w_i, w_j⟩ / 1). -/
theorem realExp_at (i j : Fin 8192) :
    val_main_v16 (F := Ideal) z (ix2 i j) = expDot (realHalf (mat z) i) (realHalf (mat z) j) := by
  have hl : ∀ k : Fin 128, lidx_main_v13 (ix2 i j) k = ix2 i k := fun k =>
    funext fun a => Fin.ext (by match a with | ⟨0, _⟩ => rfl | ⟨1, _⟩ => rfl)
  have hr : ∀ k : Fin 128, idx_main_v12 (ridx_main_v13 (ix2 i j) k) = ix2 j k := fun k =>
    funext fun a => Fin.ext (by match a with | ⟨0, _⟩ => rfl | ⟨1, _⟩ => rfl)
  simp only [val_main_v16_apply, val_main_v15_apply, val_main_v13_apply, val_main_v12_apply, val_main_v14_apply,
    val_main_cst_0_apply, hl, hr, real_at, Ideal.hostUnary_exp_def, Ideal.hostDivf_def, Ideal.ofBits_def]
  rfl

theorem augExp_at (i j : Fin 8192) :
    val_main_v23 (F := Ideal) z (ix2 i j) = expDot (augHalf (mat z) i) (augHalf (mat z) j) := by
  have hl : ∀ k : Fin 128, lidx_main_v20 (ix2 i j) k = ix2 i k := fun k =>
    funext fun a => Fin.ext (by match a with | ⟨0, _⟩ => rfl | ⟨1, _⟩ => rfl)
  have hr : ∀ k : Fin 128, idx_main_v19 (ridx_main_v20 (ix2 i j) k) = ix2 j k := fun k =>
    funext fun a => Fin.ext (by match a with | ⟨0, _⟩ => rfl | ⟨1, _⟩ => rfl)
  simp only [val_main_v23_apply, val_main_v22_apply, val_main_v20_apply, val_main_v19_apply, val_main_v21_apply,
    val_main_cst_3_apply, hl, hr, aug_at, Ideal.hostUnary_exp_def, Ideal.hostDivf_def, Ideal.ofBits_def]
  rfl

/-- Stage 4b: the select puts 0 on the diagonal and keeps the exponential elsewhere. -/
theorem realMasked_at (i j : Fin 8192) :
    val_main_v17 (F := Ideal) z (ix2 i j)
      = if i.val = j.val then 0 else expDot (realHalf (mat z) i) (realHalf (mat z) j) := by
  rw [val_main_v17_apply]
  by_cases h : i.val = j.val
  · rw [(mask_at i j).mpr h, select_one, if_pos h, val_main_call1_v1_apply, val_main_call1_v0_apply, val_main_cst_1_apply,
      Ideal.ofBits_def, Ideal.ofBits_zero_f32]
  · rw [eq_zero_of_ne_one (mt (mask_at i j).mp h), select_zero, if_neg h, realExp_at]

theorem augMasked_at (i j : Fin 8192) :
    val_main_v24 (F := Ideal) z (ix2 i j)
      = if i.val = j.val then 0 else expDot (augHalf (mat z) i) (augHalf (mat z) j) := by
  rw [val_main_v24_apply]
  by_cases h : i.val = j.val
  · rw [(mask_at i j).mpr h, select_one, if_pos h, val_main_call2_v1_apply, val_main_call2_v0_apply, val_main_cst_4_apply,
      Ideal.ofBits_def, Ideal.ofBits_zero_f32]
  · rw [eq_zero_of_ne_one (mt (mask_at i j).mp h), select_zero, if_neg h, augExp_at]

/-- Stage 5: the row sums, from the initial value 0. -/
theorem realSum_at (i : Fin 8192) :
    val_main_v18 (F := Ideal) z (ix1 i) = rowSum (realHalf (mat z)) i := by
  have hidx : ∀ k : Fin 8192, idx_main_v18 (ix1 i) k = ix2 i k := fun k =>
    funext fun a => Fin.ext (by match a with | ⟨0, _⟩ => rfl | ⟨1, _⟩ => rfl)
  simp only [val_main_v18_apply, val_main_cst_2_apply, hidx, realMasked_at, Ideal.ofBits_def, Ideal.ofBits_zero_f32,
    zero_add, rowSum]

theorem augSum_at (i : Fin 8192) :
    val_main_v25 (F := Ideal) z (ix1 i) = rowSum (augHalf (mat z)) i := by
  have hidx : ∀ k : Fin 8192, idx_main_v25 (ix1 i) k = ix2 i k := fun k =>
    funext fun a => Fin.ext (by match a with | ⟨0, _⟩ => rfl | ⟨1, _⟩ => rfl)
  simp only [val_main_v25_apply, val_main_cst_5_apply, hidx, augMasked_at, Ideal.ofBits_def, Ideal.ofBits_zero_f32,
    zero_add, rowSum]

/-- Stage 6: the positive pair: exp(⟨u_i, v_i⟩ / 1). -/
theorem pos_at (i : Fin 8192) :
    val_main_v30 (F := Ideal) z (ix1 i) = pos (mat z) i := by
  have hidx : ∀ k : Fin 128, idx_main_v27 (ix1 i) k = ix2 i k := fun k =>
    funext fun a => Fin.ext (by match a with | ⟨0, _⟩ => rfl | ⟨1, _⟩ => rfl)
  simp only [val_main_v30_apply, val_main_v29_apply, val_main_v27_apply, val_main_v28_apply, val_main_cst_7_apply,
    val_main_cst_6_apply, val_main_v26_apply, hidx, real_at, aug_at, Ideal.hostUnary_exp_def, Ideal.hostDivf_def,
    Ideal.mulf_def, Ideal.ofBits_def, Ideal.ofBits_zero_f32, zero_add]
  rfl

/-- Stage 7a: the summand of the loss at i. -/
theorem term_at (i : Fin 8192) :
    val_main_v33 (F := Ideal) z (ix1 i)
      = Ideal.log (Ideal.div (pos (mat z) i) (rowSum (realHalf (mat z)) i * rowSum (augHalf (mat z)) i)) := by
  rw [val_main_v33_apply, val_main_v32_apply, val_main_v31_apply, pos_at, realSum_at, augSum_at, Ideal.hostUnary_log_def,
    Ideal.hostDivf_def, Ideal.mulf_def]

/-- Stage 7b: the scalar: minus the sum of the summands over the count. -/
theorem loss_at (j : S_.Idx) :
    val_main_v36 (F := Ideal) z j = loss (mat z) := by
  rw [val_main_v36_apply, val_main_v35_apply, val_main_v34_apply, val_main_cst_8_apply, val_main_cst_9_apply,
    Ideal.hostNegf_def, Ideal.negf_def, Ideal.hostDivf_def, Ideal.ofBits_def, Ideal.ofBits_def, Ideal.ofBits_zero_f32, zero_add,
    ← Equiv.sum_comp (idxEquiv1 (n := 8192)).symm]
  have hterm : ∀ i : Fin 8192, val_main_v33 (F := Ideal) z ((idxEquiv1 (n := 8192)).symm i)
      = Ideal.log (Ideal.div (pos (mat z) i) (rowSum (realHalf (mat z)) i * rowSum (augHalf (mat z)) i)) :=
    fun i => term_at z i
  simp only [hterm, loss]
  rfl

end Stages

/-- The reference's float result is the loss of its argument read as a matrix. -/
theorem result_eq (m : (ℓ : Loc nD τ sig) → Buf (Elt Ideal) ℓ) (c : Dev nD) :
    Cert.ReferenceIdeal.Value.res_main_v36 (F := Ideal) m c
      = fun _ => Cert.NTXent.loss (fun r d => m ((c.tc : Thread nD τ).loc main_arg0) (ix2 r d)) := by
  rw [Cert.ReferenceIdeal.Read.val_main_v36_eq]
  funext j
  exact loss_at _ j

end Cert.ReferenceIdeal.RefValue

end
-- ==== Proof.lean ====
/-
  The certificate of the NT-Xent kernel against its reference. Both programs compute, on the extended reals, the loss of
  Proof/Spec.lean of the argument matrix z: every row divided by its clamped norm, the two halves' masked row sums of
  exp⟨w_i, w_j⟩, the positive pairs exp⟨u_i, v_i⟩, and −(Σ_i log(P(i) / (S_u(i) · S_v(i)))) / 8192. The kernel slices z first and
  normalises block by block, and forms each row sum by eight partial sums over blocks of 1024 keys; the reference normalises
  z whole and sums over all 8192 keys at once. The two agree by regrouping finite sums (commutativity and associativity of +
  alone: the precondition's finiteness is never used). The frames: each program runs to its end from any memory with zero
  counters and leaves the argument as launched.
-/
import proofs.«181642_j55198919688654_1_alg».proof.Defs
import proofs.«181642_j55198919688654_1_alg».proof.Proof.Gen.Kernel
import proofs.«181642_j55198919688654_1_alg».proof.Proof.Gen.KernelIdeal
import proofs.«181642_j55198919688654_1_alg».proof.Proof.Gen.ReferenceIdeal
import proofs.«181642_j55198919688654_1_alg».proof.Proof.Gen.Pre_finite_inputs
import proofs.«181642_j55198919688654_1_alg».proof.Proof.Kernel.Whole
import proofs.«181642_j55198919688654_1_alg».proof.Proof.KernelIdeal.KernelValue
import proofs.«181642_j55198919688654_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k [Cert.Kernel.Facts] [Cert.Pre_finite_inputs.Facts] : Cert.frame_Kernel := fun m ρ _ =>
  (θ_run Cert.Kernel.defs _ _).mono (fun _ h c => (h c).1) (Cert.Kernel.Hand.run_main (F := Bits) m ρ)

/-- So does its idealisation. -/
theorem frame_ki [Cert.KernelIdeal.Facts] [Cert.Pre_finite_inputs.Facts] : Cert.frame_KernelIdeal := fun m ρ _ =>
  (θ_run Cert.KernelIdeal.defs _ _).mono (fun _ h c => (h c).1) (Cert.KernelIdeal.Hand.run_main (F := Ideal) m ρ)

/-- And the reference: its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on z both idealised programs end at the loss of z and at the constant 0. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.NTXent.loss (Cert.KernelIdeal.Hand.argMat m c), fun c => constantI Cert.KernelIdeal.S_ 32 0#32, ?_, ?_⟩
  · exact (θ_run Cert.KernelIdeal.defs _ _).mono
      (fun _ h c => ⟨(h c).2.1.trans (Cert.KernelIdeal.Hand.result_eq m c), (h c).2.2.trans (Cert.KernelIdeal.Hand.count_eq m c), (h c).1⟩)
      (Cert.KernelIdeal.Hand.run_main (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.RefValue.result_eq m' c, hagree c]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
